-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3x128 : Shape := ⟨3, ![65536, 3, 128]⟩
abbrev S256x256 : Shape := ⟨2, ![256, 256]⟩
abbrev S256 : Shape := ⟨1, ![256]⟩
abbrev S256x640 : Shape := ⟨2, ![256, 640]⟩
abbrev S8x256 : Shape := ⟨2, ![8, 256]⟩
abbrev S8 : Shape := ⟨1, ![8]⟩
abbrev S_ : Shape := ⟨0, ![]⟩

class Facts : Prop where
  bcast_S_S65536x3x128 : S_.BroadcastsInDim S65536x3x128 (![] : Fin 0 → Fin S65536x3x128.rank)
  reducesTo_S65536x3x128_S_d0_1_2 : S65536x3x128.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x640 : S_.BroadcastsInDim S256x640 (![] : Fin 0 → Fin S256x640.rank)
  reducesTo_S256x640_S_d0_1 : S256x640.ReducesTo [0, 1] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8x256 .f32) (main_arg8 : FVec F S8 .f32) (main_v33 : IVec S_ 1) : IVec S_ 1 :=
  let main_v34 : FVec F S8x256 .f32 := Host.absf main_arg7
  let main_cst_12 : FVec F S_ .f32 := constant S_ .f32 0x7F800000#32
  let main_v35 : FVec F S8x256 .f32 := broadcastInDim S8x256 ![] bcast_S_S8x256 main_cst_12
  let main_v36 : IVec S8x256 1 := cmpf .olt main_v34 main_v35
  let main_c_13 : IVec S_ 1 := constantI S_ 1 1#1
  let main_v37 : IVec S_ 1 := (fun x v => Host.reduce IntOp.andi x v reducesTo_S8x256_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg4 : FVec F S256 .f32) (main_arg5 : FVec F S256x640 .f32) (main_arg6 : FVec F S256 .f32) (main_arg7 : FVec F S8x256 .f32) (main_arg8 : FVec F S8 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x640 .f32 := Host.absf main_arg5
  let main_cst_8 : FVec F S_ .f32 := constant S_ .f32 0x7F800000#32
  let main_v25 : FVec F S256x640 .f32 := broadcastInDim S256x640 ![] bcast_S_S256x640 main_cst_8
  let main_v26 : IVec S256x640 1 := cmpf .olt main_v24 main_v25
  let main_c_9 : IVec S_ 1 := constantI S_ 1 1#1
  let main_v27 : IVec S_ 1 := (fun x v => Host.reduce IntOp.andi x v reducesTo_S256x640_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S65536x3x128 .f32) (main_arg1 : FVec F S256x256 .f32) (main_arg2 : FVec F S256 .f32) (main_arg3 : FVec F S256x256 .f32) (main_arg4 : FVec F S256 .f32) (main_arg5 : FVec F S256x640 .f32) (main_arg6 : FVec F S256 .f32) (main_arg7 : FVec F S8x256 .f32) (main_arg8 : FVec F S8 .f32) : IVec S_ 1 :=
  let main_v0 : FVec F S65536x3x128 .f32 := Host.absf main_arg0
  let main_cst : FVec F S_ .f32 := constant S_ .f32 0x7F800000#32
  let main_v1 : FVec F S65536x3x128 .f32 := broadcastInDim S65536x3x128 ![] bcast_S_S65536x3x128 main_cst
  let main_v2 : IVec S65536x3x128 1 := cmpf .olt main_v0 main_v1
  let main_c : IVec S_ 1 := constantI S_ 1 1#1
  let main_v3 : IVec S_ 1 := (fun x v => Host.reduce IntOp.andi x v reducesTo_S65536x3x128_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S65536x3x128 : Shape := ⟨3, ![65536, 3, 128]⟩
abbrev S256x256 : Shape := ⟨2, ![256, 256]⟩
abbrev S256 : Shape := ⟨1, ![256]⟩
abbrev S256x640 : Shape := ⟨2, ![256, 640]⟩
abbrev S8x256 : Shape := ⟨2, ![8, 256]⟩
abbrev S8 : Shape := ⟨1, ![8]⟩
abbrev S65536x384 : Shape := ⟨2, ![65536, 384]⟩
abbrev S256x512 : Shape := ⟨2, ![256, 512]⟩
abbrev S128x512 : Shape := ⟨2, ![128, 512]⟩
abbrev S512 : Shape := ⟨1, ![512]⟩
abbrev S1x512 : Shape := ⟨2, ![1, 512]⟩
abbrev S640x256 : Shape := ⟨2, ![640, 256]⟩
abbrev S384x256 : Shape := ⟨2, ![384, 256]⟩
abbrev S256x8 : Shape := ⟨2, ![256, 8]⟩
abbrev S1x256 : Shape := ⟨2, ![1, 256]⟩
abbrev S1x8 : Shape := ⟨2, ![1, 8]⟩
abbrev S65536x8 : Shape := ⟨2, ![65536, 8]⟩
abbrev S2048x384 : Shape := ⟨2, ![2048, 384]⟩
abbrev S2048x8 : Shape := ⟨2, ![2048, 8]⟩
abbrev S2048x128 : Shape := ⟨2, ![2048, 128]⟩
abbrev S2048x512 : Shape := ⟨2, ![2048, 512]⟩
abbrev S2048x256 : Shape := ⟨2, ![2048, 256]⟩

abbrev nBuf : Space → Nat
  | .hbm => 27
  | .vmem => 12
  | .smem => 0
  | _ => 0

abbrev bufTy : (tb : Table) → Fin (tcTables nBuf tb) → BufTy
  | .hbm, ⟨0, _⟩ => ⟨S65536x3x128, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x640, .f32⟩
  | .hbm, ⟨6, _⟩ => ⟨S256, .f32⟩
  | .hbm, ⟨7, _⟩ => ⟨S8x256, .f32⟩
  | .hbm, ⟨8, _⟩ => ⟨S8, .f32⟩
  | .hbm, ⟨9, _⟩ => ⟨S65536x384, .f32⟩
  | .hbm, ⟨10, _⟩ => ⟨S256x256, .f32⟩
  | .hbm, ⟨11, _⟩ => ⟨S256x256, .f32⟩
  | .hbm, ⟨12, _⟩ => ⟨S256x512, .f32⟩
  | .hbm, ⟨13, _⟩ => ⟨S256x512, .bf16⟩
  | .hbm, ⟨14, _⟩ => ⟨S128x512, .bf16⟩
  | .hbm, ⟨15, _⟩ => ⟨S128x512, .bf16⟩
  | .hbm, ⟨16, _⟩ => ⟨S512, .f32⟩
  | .hbm, ⟨17, _⟩ => ⟨S1x512, .f32⟩
  | .hbm, ⟨18, _⟩ => ⟨S640x256, .f32⟩
  | .hbm, ⟨19, _⟩ => ⟨S640x256, .bf16⟩
  | .hbm, ⟨20, _⟩ => ⟨S256x256, .bf16⟩
  | .hbm, ⟨21, _⟩ => ⟨S384x256, .bf16⟩
  | .hbm, ⟨22, _⟩ => ⟨S256x8, .f32⟩
  | .hbm, ⟨23, _⟩ => ⟨S256x8, .bf16⟩
  | .hbm, ⟨24, _⟩ => ⟨S1x256, .f32⟩
  | .hbm, ⟨25, _⟩ => ⟨S1x8, .f32⟩
  | .hbm, ⟨26, _⟩ => ⟨S65536x8, .f32⟩
  | .local _ .vmem, ⟨0, _⟩ => ⟨S2048x384, .f32⟩
  | .local _ .vmem, ⟨1, _⟩ => ⟨S2048x384, .f32⟩
  | .local _ .vmem, ⟨2, _⟩ => ⟨S128x512, .bf16⟩
  | .local _ .vmem, ⟨3, _⟩ => ⟨S128x512, .bf16⟩
  | .local _ .vmem, ⟨4, _⟩ => ⟨S1x512, .f32⟩
  | .local _ .vmem, ⟨5, _⟩ => ⟨S256x256, .bf16⟩
  | .local _ .vmem, ⟨6, _⟩ => ⟨S384x256, .bf16⟩
  | .local _ .vmem, ⟨7, _⟩ => ⟨S1x256, .f32⟩
  | .local _ .vmem, ⟨8, _⟩ => ⟨S256x8, .bf16⟩
  | .local _ .vmem, ⟨9, _⟩ => ⟨S1x8, .f32⟩
  | .local _ .vmem, ⟨10, _⟩ => ⟨S2048x8, .f32⟩
  | .local _ .vmem, ⟨11, _⟩ => ⟨S2048x8, .f32⟩
  | _, _ => ⟨S65536x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x8 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S65536x3x128_S65536x384 : S65536x3x128.ShapeCasts S65536x384
  transposes_S256x256_S256x256_1_0 : S256x256.Transposes [1, 0] S256x256
  concatenates_S256x256_S256x256_S256x512_d1 : Shape.Concatenates [S256x256, S256x256] S256x512 1
  bitsLt_bf16_f32 : FTy.bits .bf16 < FTy.bits .f32
  slices_S256x512_S128x512_0_0 : S256x512.Slices ![0, 0] S128x512
  slices_S256x512_S128x512_128_0 : S256x512.Slices ![128, 0] S128x512
  concatenates_S256_S256_S512_d0 : Shape.Concatenates [S256, S256] S512 0
  shapeCasts_S512_S1x512 : S512.ShapeCasts S1x512
  transposes_S256x640_S640x256_1_0 : S256x640.Transposes [1, 0] S640x256
  slices_S640x256_S256x256_0_0 : S640x256.Slices ![0, 0] S256x256
  slices_S640x256_S384x256_256_0 : S640x256.Slices ![256, 0] S384x256
  transposes_S8x256_S256x8_1_0 : S8x256.Transposes [1, 0] S256x8
  shapeCasts_S256_S1x256 : S256.ShapeCasts S1x256
  shapeCasts_S8_S1x8 : S8.ShapeCasts S1x8
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x256 : S2048x512.Slices ![0, 0] S2048x256
  slices_S2048x512_o0_256_S2048x256 : S2048x512.Slices ![0, 256] S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  inb_S2048x8_S2048x8_0_0 : ∀ a, (![0, 0] : Fin 2 → Nat) a + S2048x8.size a ≤ S2048x8.size a
  h_S2048x8 : 0 < S2048x8.numel
  dot_S2048x128_S128x512_S2048x512_1_0_0_1_n_n_wf : DotDims.WF S2048x128 S128x512 S2048x512 [1] [0] [0] [1] [] []
  dot_S2048x256_S256x256_S2048x256_1_0_0_1_n_n_wf : DotDims.WF S2048x256 S256x256 S2048x256 [1] [0] [0] [1] [] []
  dot_S2048x384_S384x256_S2048x256_1_0_0_1_n_n_wf : DotDims.WF S2048x384 S384x256 S2048x256 [1] [0] [0] [1] [] []
  dot_S2048x256_S256x8_S2048x8_1_0_0_1_n_n_wf : DotDims.WF S2048x256 S256x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S65536x384.size a
  hwx0_0 : ∀ i : grid0.Coords, EltTy.bits .f32 = 32 ∨ (Rect.block (s := S65536x384) S2048x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x256.size a ≤ S384x256.size a
  hwx0_5 : ∀ i : grid0.Coords, EltTy.bits .bf16 = 32 ∨ (Rect.block (s := S384x256) S384x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x8.size a ≤ S256x8.size a
  hwx0_7 : ∀ i : grid0.Coords, EltTy.bits .bf16 = 32 ∨ (Rect.block (s := S256x8) S256x8.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8.size a ≤ S1x8.size a
  hwx0_8 : ∀ i : grid0.Coords, EltTy.bits .f32 = 32 ∨ (Rect.block (s := S1x8) S1x8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x8.size a ≤ S65536x8.size a
  hwx0_9 : ∀ i : grid0.Coords, EltTy.bits .f32 = 32 ∨ (Rect.block (s := S65536x8) S2048x8.size (cc0_transform_9 i) (hinb0_9 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x384_S384x256_S2048x256_1_0_0_1_n_n : DotDims S2048x384 S384x256 S2048x256 where
  lhsContracting := [1]
  rhsContracting := [0]
  lhsNonContracting := [0]
  rhsNonContracting := [1]
  lhsBatch := []
  rhsBatch := []
  wf := dot_S2048x384_S384x256_S2048x256_1_0_0_1_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf

abbrev win0_0 : Pipeline.Window sig grid0 :=
  Pipeline.Window.ofSpec (Memref.whole main_v0) S2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S384x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S256x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S2048x8.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x3x128 : Shape := ⟨3, ![65536, 3, 128]⟩
abbrev S256x256 : Shape := ⟨2, ![256, 256]⟩
abbrev S256 : Shape := ⟨1, ![256]⟩
abbrev S256x640 : Shape := ⟨2, ![256, 640]⟩
abbrev S8x256 : Shape := ⟨2, ![8, 256]⟩
abbrev S8 : Shape := ⟨1, ![8]⟩
abbrev S65536x1x128 : Shape := ⟨3, ![65536, 1, 128]⟩
abbrev S65536x2x128 : Shape := ⟨3, ![65536, 2, 128]⟩
abbrev S65536x2x256 : Shape := ⟨3, ![65536, 2, 256]⟩
abbrev S1x1x256 : Shape := ⟨3, ![1, 1, 256]⟩
abbrev S_ : Shape := ⟨0, ![]⟩
abbrev S65536x256 : Shape := ⟨2, ![65536, 256]⟩
abbrev S65536x1x256 : Shape := ⟨3, ![65536, 1, 256]⟩
abbrev S65536x384 : Shape := ⟨2, ![65536, 384]⟩
abbrev S65536x640 : Shape := ⟨2, ![65536, 640]⟩
abbrev S640x256 : Shape := ⟨2, ![640, 256]⟩
abbrev S1x256 : Shape := ⟨2, ![1, 256]⟩
abbrev S256x8 : Shape := ⟨2, ![256, 8]⟩
abbrev S65536x8 : Shape := ⟨2, ![65536, 8]⟩
abbrev S1x8 : Shape := ⟨2, ![1, 8]⟩

abbrev nBuf : Space → Nat
  | .hbm => 60
  | .vmem => 0
  | .smem => 0
  | _ => 0

abbrev bufTy : (tb : Table) → Fin (tcTables nBuf tb) → BufTy
  | .hbm, ⟨0, _⟩ => ⟨S65536x3x128, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x640, .f32⟩
  | .hbm, ⟨6, _⟩ => ⟨S256, .f32⟩
  | .hbm, ⟨7, _⟩ => ⟨S8x256, .f32⟩
  | .hbm, ⟨8, _⟩ => ⟨S8, .f32⟩
  | .hbm, ⟨9, _⟩ => ⟨S65536x1x128, .f32⟩
  | .hbm, ⟨10, _⟩ => ⟨S65536x2x128, .f32⟩
  | .hbm, ⟨11, _⟩ => ⟨S65536x2x128, .f32⟩
  | .hbm, ⟨12, _⟩ => ⟨S65536x2x256, .f32⟩
  | .hbm, ⟨13, _⟩ => ⟨S65536x2x256, .f32⟩
  | .hbm, ⟨14, _⟩ => ⟨S1x1x256, .f32⟩
  | .hbm, ⟨15, _⟩ => ⟨S65536x2x256, .f32⟩
  | .hbm, ⟨16, _⟩ => ⟨S65536x2x256, .f32⟩
  | .hbm, ⟨17, _⟩ => ⟨S_, .f32⟩
  | .hbm, ⟨18, _⟩ => ⟨S65536x2x256, .f32⟩
  | .hbm, ⟨19, _⟩ => ⟨S65536x2x256, .f32⟩
  | .hbm, ⟨20, _⟩ => ⟨S65536x2x256, .f32⟩
  | .hbm, ⟨21, _⟩ => ⟨S1x1x256, .f32⟩
  | .hbm, ⟨22, _⟩ => ⟨S65536x2x256, .f32⟩
  | .hbm, ⟨23, _⟩ => ⟨S65536x2x256, .f32⟩
  | .hbm, ⟨24, _⟩ => ⟨S_, .f32⟩
  | .hbm, ⟨25, _⟩ => ⟨S65536x2x256, .f32⟩
  | .hbm, ⟨26, _⟩ => ⟨S65536x2x256, .f32⟩
  | .hbm, ⟨27, _⟩ => ⟨S_, .f32⟩
  | .hbm, ⟨28, _⟩ => ⟨S65536x256, .f32⟩
  | .hbm, ⟨29, _⟩ => ⟨S_, .f32⟩
  | .hbm, ⟨30, _⟩ => ⟨S65536x256, .f32⟩
  | .hbm, ⟨31, _⟩ => ⟨S65536x256, .f32⟩
  | .hbm, ⟨32, _⟩ => ⟨S65536x1x256, .f32⟩
  | .hbm, ⟨33, _⟩ => ⟨S65536x2x256, .f32⟩
  | .hbm, ⟨34, _⟩ => ⟨S65536x2x256, .f32⟩
  | .hbm, ⟨35, _⟩ => ⟨S65536x2x256, .f32⟩
  | .hbm, ⟨36, _⟩ => ⟨S_, .f32⟩
  | .hbm, ⟨37, _⟩ => ⟨S65536x256, .f32⟩
  | .hbm, ⟨38, _⟩ => ⟨S65536x1x256, .f32⟩
  | .hbm, ⟨39, _⟩ => ⟨S65536x2x256, .f32⟩
  | .hbm, ⟨40, _⟩ => ⟨S65536x2x256, .f32⟩
  | .hbm, ⟨41, _⟩ => ⟨S65536x2x256, .f32⟩
  | .hbm, ⟨42, _⟩ => ⟨S_, .f32⟩
  | .hbm, ⟨43, _⟩ => ⟨S65536x256, .f32⟩
  | .hbm, ⟨44, _⟩ => ⟨S65536x384, .f32⟩
  | .hbm, ⟨45, _⟩ => ⟨S65536x640, .f32⟩
  | .hbm, ⟨46, _⟩ => ⟨S640x256, .f32⟩
  | .hbm, ⟨47, _⟩ => ⟨S65536x256, .f32⟩
  | .hbm, ⟨48, _⟩ => ⟨S1x256, .f32⟩
  | .hbm, ⟨49, _⟩ => ⟨S65536x256, .f32⟩
  | .hbm, ⟨50, _⟩ => ⟨S65536x256, .f32⟩
  | .hbm, ⟨51, _⟩ => ⟨S_, .f32⟩
  | .hbm, ⟨52, _⟩ => ⟨S65536x256, .f32⟩
  | .hbm, ⟨53, _⟩ => ⟨S65536x256, .f32⟩
  | .hbm, ⟨54, _⟩ => ⟨S256x8, .f32⟩
  | .hbm, ⟨55, _⟩ => ⟨S65536x8, .f32⟩
  | .hbm, ⟨56, _⟩ => ⟨S1x8, .f32⟩
  | .hbm, ⟨57, _⟩ => ⟨S65536x8, .f32⟩
  | .hbm, ⟨58, _⟩ => ⟨S65536x8, .f32⟩
  | .hbm, ⟨59, _⟩ => ⟨S65536x8, .f32⟩
  | _, _ => ⟨S65536x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_cst : Ref sig .tc := ⟨.hbm, 24, rfl⟩
abbrev main_call1_v0 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call2_cst : Ref sig .tc := ⟨.hbm, 51, rfl⟩
abbrev main_call2_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  slices_S65536x3x128_S65536x1x128_0_0_0 : S65536x3x128.Slices ![0, 0, 0] S65536x1x128
  bcast_S65536x1x128_S65536x2x128_0_1_2 : S65536x1x128.BroadcastsInDim S65536x2x128 (![0, 1, 2] : Fin 3 → Fin S65536x2x128.rank)
  slices_S65536x3x128_S65536x2x128_0_1_0 : S65536x3x128.Slices ![0, 1, 0] S65536x2x128
  concatenates_S65536x2x128_S65536x2x128_S65536x2x256_d2 : Shape.Concatenates [S65536x2x128, S65536x2x128] S65536x2x256 2
  bcast_S256_S1x1x256_2 : S256.BroadcastsInDim S1x1x256 (![2] : Fin 1 → Fin S1x1x256.rank)
  bcast_S1x1x256_S65536x2x256_0_1_2 : S1x1x256.BroadcastsInDim S65536x2x256 (![0, 1, 2] : Fin 3 → Fin S65536x2x256.rank)
  bcast_S_S65536x2x256 : S_.BroadcastsInDim S65536x2x256 (![] : Fin 0 → Fin S65536x2x256.rank)
  reducesTo_S65536x2x256_S65536x256_d1 : S65536x2x256.ReducesTo [1] S65536x256
  h_S_ : 0 < S_.numel
  bcast_S_S65536x256 : S_.BroadcastsInDim S65536x256 (![] : Fin 0 → Fin S65536x256.rank)
  bcast_S65536x256_S65536x1x256_0_2 : S65536x256.BroadcastsInDim S65536x1x256 (![0, 2] : Fin 2 → Fin S65536x1x256.rank)
  bcast_S65536x1x256_S65536x2x256_0_1_2 : S65536x1x256.BroadcastsInDim S65536x2x256 (![0, 1, 2] : Fin 3 → Fin S65536x2x256.rank)
  shapeCasts_S65536x3x128_S65536x384 : S65536x3x128.ShapeCasts S65536x384
  concatenates_S65536x256_S65536x384_S65536x640_d1 : Shape.Concatenates [S65536x256, S65536x384] S65536x640 1
  transposes_S256x640_S640x256_1_0 : S256x640.Transposes [1, 0] S640x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  transposes_S8x256_S256x8_1_0 : S8x256.Transposes [1, 0] S256x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  dot_S65536x2x256_S256x256_S65536x2x256_2_1_01_0_n_n_wf : DotDims.WF S65536x2x256 S256x256 S65536x2x256 [2] [1] [0, 1] [0] [] []
  dot_S65536x640_S640x256_S65536x256_1_0_0_1_n_n_wf : DotDims.WF S65536x640 S640x256 S65536x256 [1] [0] [0] [1] [] []
  dot_S65536x256_S256x8_S65536x8_1_0_0_1_n_n_wf : DotDims.WF S65536x256 S256x8 S65536x8 [1] [0] [0] [1] [] []

variable [Facts₀]

def dot_S65536x2x256_S256x256_S65536x2x256_2_1_01_0_n_n : DotDims S65536x2x256 S256x256 S65536x2x256 where
  lhsContracting := [2]
  rhsContracting := [1]
  lhsNonContracting := [0, 1]
  rhsNonContracting := [0]
  lhsBatch := []
  rhsBatch := []
  wf := dot_S65536x2x256_S256x256_S65536x2x256_2_1_01_0_n_n_wf
def dot_S65536x640_S640x256_S65536x256_1_0_0_1_n_n : DotDims S65536x640 S640x256 S65536x256 where
  lhsContracting := [1]
  rhsContracting := [0]
  lhsNonContracting := [0]
  rhsNonContracting := [1]
  lhsBatch := []
  rhsBatch := []
  wf := dot_S65536x640_S640x256_S65536x256_1_0_0_1_n_n_wf
def dot_S65536x256_S256x8_S65536x8_1_0_0_1_n_n : DotDims S65536x256 S256x8 S65536x8 where
  lhsContracting := [1]
  rhsContracting := [0]
  lhsNonContracting := [0]
  rhsNonContracting := [1]
  lhsBatch := []
  rhsBatch := []
  wf := dot_S65536x256_S256x8_S65536x8_1_0_0_1_n_n_wf

class Facts : Prop extends Facts₀ where

variable [Facts]
-- ==== Proof.Net.lean ====
/-
  The network both programs compute, for ONE sample, on the extended reals.

  A sample is three feature rows `x a d` (`a < 3`, `d < 128`): row 0 is the agent, rows 1 and 2 its two neighbours.
  For neighbour `n` the input is the agent's row followed by the neighbour's (`agents`), and two linear layers
  with a rectifier give a hidden row `h n` and an attention logit row `e n` (`lin`). The two neighbours are mixed with
  softmax weights over `n` (`softmix`, the reference's form: shifted exponentials over their sum) or, equivalently on
  real numbers, with a logistic weight of the logits' difference (`sigmix`, the kernel's form). The mixed row followed
  by the sample's 384 features goes through a third linear layer with a rectifier (`feat`) and a fourth with a
  hyperbolic tangent (`out`).

  `outK` is the same network over the weights as the kernel's program lays them out (transposed, the first two layers
  side by side in 512 columns and cut after 128 input rows, the third cut after 256 input rows) and with every
  contraction cut where the kernel cuts it; `outK_eq_out` says the two agree, by regrouping finite sums only.
-/
import Idealize.ShloMosaic.PureOps.Ideal
import Idealize.ShloMosaic.PureOps.Ideal.Laws
import Idealize.ShloMosaic.Lib.ValueIdx

noncomputable section

namespace Cert.Net

open Idealize.ShloMosaic

/-- An extended real that is a real number. -/
def IsReal (x : EReal) : Prop := ∃ r : ℝ, x = (r : EReal)

/-! ## Mixing the two neighbours -/

/-- Softmax weights over the two neighbours, each exponential shifted by the larger logit, then the weighted sum of
    the hidden values; both sums start from zero. -/
def softmix (e h : Fin 2 → EReal) : EReal :=
  0 + ∑ n : Fin 2, Ideal.div (Ideal.exp (e n - max (e 0) (e 1))) (0 + ∑ n' : Fin 2, Ideal.exp (e n' - max (e 0) (e 1))) * h n

/-- The second hidden value plus the logistic of the logits' difference times the hidden values' difference. -/
def sigmix (e h : Fin 2 → EReal) : EReal :=
  h 1 + Ideal.div 1 (1 + Ideal.exp (0 - (e 0 - e 1))) * (h 0 - h 1)

/-! ## One sample through the network, in the reference's layout -/

/-- The agent's row followed by neighbour `n`'s. -/
def agents (x : Fin 3 → Fin 128 → EReal) (n : Fin 2) (d : Fin 256) : EReal :=
  if h : d.val < 128 then x 0 ⟨d.val, h⟩ else x ⟨n.val + 1, by omega⟩ ⟨d.val - 128, by omega⟩

/-- A linear layer on `agents` with a rectifier: `max (∑ d, agents n d * W j d + β j) 0`. -/
def lin (x : Fin 3 → Fin 128 → EReal) (W : Fin 256 → Fin 256 → EReal) (β : Fin 256 → EReal) (n : Fin 2) (j : Fin 256) : EReal :=
  max ((∑ d : Fin 256, agents x n d * W j d) + β j) 0

/-- The mixed hidden row: logits from the second layer, hidden values from the first. -/
def hid (mix : (Fin 2 → EReal) → (Fin 2 → EReal) → EReal) (x : Fin 3 → Fin 128 → EReal)
    (W1 : Fin 256 → Fin 256 → EReal) (b1 : Fin 256 → EReal) (W2 : Fin 256 → Fin 256 → EReal) (b2 : Fin 256 → EReal) (j : Fin 256) : EReal :=
  mix (fun n => lin x W2 b2 n j) (fun n => lin x W1 b1 n j)

/-- The sample's 384 features in one row. -/
def flat (x : Fin 3 → Fin 128 → EReal) (j : Fin 384) : EReal :=
  x ⟨j.val / 128, by omega⟩ ⟨j.val % 128, Nat.mod_lt _ (by norm_num)⟩

/-- A hidden row `H` followed by the sample's 384 features. -/
def cat (H : Fin 256 → EReal) (x : Fin 3 → Fin 128 → EReal) (j : Fin 640) : EReal :=
  if h : j.val < 256 then H ⟨j.val, h⟩ else flat x ⟨j.val - 256, by omega⟩

/-- The third layer with its rectifier. -/
def feat (H : Fin 256 → EReal) (x : Fin 3 → Fin 128 → EReal) (W3 : Fin 256 → Fin 640 → EReal) (b3 : Fin 256 → EReal) (k : Fin 256) : EReal :=
  max ((∑ j : Fin 640, cat H x j * W3 k j) + b3 k) 0

/-- The fourth layer with its hyperbolic tangent: the sample's result. -/
def out (H : Fin 256 → EReal) (x : Fin 3 → Fin 128 → EReal) (W3 : Fin 256 → Fin 640 → EReal) (b3 : Fin 256 → EReal)
    (W4 : Fin 8 → Fin 256 → EReal) (b4 : Fin 8 → EReal) (o : Fin 8) : EReal :=
  Ideal.tanh ((∑ k : Fin 256, feat H x W3 b3 k * W4 o k) + b4 o)

/-- The whole network with a given way of mixing the neighbours. -/
def net (mix : (Fin 2 → EReal) → (Fin 2 → EReal) → EReal) (x : Fin 3 → Fin 128 → EReal)
    (W1 : Fin 256 → Fin 256 → EReal) (b1 : Fin 256 → EReal) (W2 : Fin 256 → Fin 256 → EReal) (b2 : Fin 256 → EReal)
    (W3 : Fin 256 → Fin 640 → EReal) (b3 : Fin 256 → EReal) (W4 : Fin 8 → Fin 256 → EReal) (b4 : Fin 8 → EReal) (o : Fin 8) : EReal :=
  out (hid mix x W1 b1 W2 b2) x W3 b3 W4 b4 o

/-! ## The same sample through the network as the kernel lays it out -/

/-- Row `n` of the first two layers' pre-activations, 512 columns (the first layer's 256, then the second's): the
    agent's 128 features against `wa`, plus the neighbour's against `wn`, plus the bias row. -/
def preK (x : Fin 3 → Fin 128 → EReal) (wa wn : Fin 128 → Fin 512 → EReal) (b12 : Fin 512 → EReal) (n : Fin 2) (c : Fin 512) : EReal :=
  ((∑ d : Fin 128, x 0 d * wa d c) + (∑ d : Fin 128, x ⟨n.val + 1, by omega⟩ d * wn d c)) + b12 c

/-- The mixed hidden row in the kernel's form: hidden values from columns `j`, logits from columns `256 + j`. -/
def hidK (x : Fin 3 → Fin 128 → EReal) (wa wn : Fin 128 → Fin 512 → EReal) (b12 : Fin 512 → EReal) (j : Fin 256) : EReal :=
  sigmix (fun n => max (preK x wa wn b12 n ⟨256 + j.val, by omega⟩) 0) (fun n => max (preK x wa wn b12 n ⟨j.val, by omega⟩) 0)

/-- The third layer in the kernel's form: the hidden row against `w3a`, plus the 384 features against `w3b`, plus the bias. -/
def featK (H : Fin 256 → EReal) (x : Fin 3 → Fin 128 → EReal) (w3a : Fin 256 → Fin 256 → EReal) (w3b : Fin 384 → Fin 256 → EReal)
    (b3 : Fin 256 → EReal) (k : Fin 256) : EReal :=
  max (((∑ j : Fin 256, H j * w3a j k) + (∑ j : Fin 384, flat x j * w3b j k)) + b3 k) 0

/-- The kernel's result for one sample. -/
def outK (x : Fin 3 → Fin 128 → EReal) (wa wn : Fin 128 → Fin 512 → EReal) (b12 : Fin 512 → EReal)
    (w3a : Fin 256 → Fin 256 → EReal) (w3b : Fin 384 → Fin 256 → EReal) (b3 : Fin 256 → EReal)
    (w4 : Fin 256 → Fin 8 → EReal) (b4 : Fin 8 → EReal) (o : Fin 8) : EReal :=
  Ideal.tanh ((∑ k : Fin 256, featK (hidK x wa wn b12) x w3a w3b b3 k * w4 k o) + b4 o)

/-- The first two layers' weights side by side, transposed: column `c < 256` is the first layer's row `c`, column
    `256 + c'` the second layer's row `c'`; `r` is the input feature (`r < 256`). -/
def w12 (W1 W2 : Fin 256 → Fin 256 → EReal) (r : Fin 256) (c : Fin 512) : EReal :=
  if h : c.val < 256 then W1 ⟨c.val, h⟩ r else W2 ⟨c.val - 256, by omega⟩ r

/-- The two bias rows end to end. -/
def bias12 (b1 b2 : Fin 256 → EReal) (c : Fin 512) : EReal :=
  if h : c.val < 256 then b1 ⟨c.val, h⟩ else b2 ⟨c.val - 256, by omega⟩

/-! ## The whole result array from the nine argument arrays -/

open Idealize.ShloMosaic.ValueIdx

/-- Entry `(b, o)` of the result: the network on sample `b` of `st` with the parameters read off the arrays. -/
def result (mix : (Fin 2 → EReal) → (Fin 2 → EReal) → EReal)
    (st : (⟨3, ![65536, 3, 128]⟩ : Shape).Idx → EReal)
    (w1 : (⟨2, ![256, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![256, 640]⟩ : Shape).Idx → EReal) (b3 : (⟨1, ![256]⟩ : Shape).Idx → EReal)
    (w4 : (⟨2, ![8, 256]⟩ : Shape).Idx → EReal) (b4 : (⟨1, ![8]⟩ : Shape).Idx → EReal) :
    (⟨2, ![65536, 8]⟩ : Shape).Idx → EReal :=
  fun i => net mix (fun a d => st (ix3 (⟨(i 0).val, idx2_lt0 i⟩ : Fin 65536) a d))
    (fun j d => w1 (ix2 j d)) (fun j => b1 (ix1 j)) (fun j d => w2 (ix2 j d)) (fun j => b2 (ix1 j))
    (fun k j => w3 (ix2 k j)) (fun k => b3 (ix1 k)) (fun o k => w4 (ix2 o k)) (fun o => b4 (ix1 o))
    (⟨(i 1).val, idx2_lt1 i⟩ : Fin 8)

end Cert.Net

end
-- ==== Proof.KernelBodyA.lean ====
/-
  The first half of the kernel's body for one row of its block, at the extended reals: the two neighbours' hidden
  values and the logistic weight of their logits, each entry read off the feature block and the first two layers'
  parameter blocks. A block product into a zero accumulator is the plain sum over the contracted index; a slice of
  columns reads the column shifted by the slice's offset; a row broadcast reads the row.
-/
import proofs.«428342_j73306501808520_3_alg».proof.Proof.Gen.KernelIdeal.Skeleton
import proofs.«428342_j73306501808520_3_alg».proof.Proof.Net
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Body

open Cert.KernelIdeal Cert.KernelIdeal.Gen Idealize.ShloMosaic Idealize.ShloMosaic.ValueIdx

/-! ## The block product 2048 × 128 by 128 × 512

The dimension numbers contract the left operand's columns against the right operand's rows; the left operand is read at
(output row, contraction index), the right one at (contraction index, output column). -/

/-- The left operand's row is the output's row. -/
theorem prod_lhs_0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
/-- The left operand's column is the contraction index. -/
theorem prod_lhs_1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
/-- The right operand's row is the contraction index. -/
theorem prod_rhs_0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
/-- The right operand's column is the output's column. -/
theorem prod_rhs_1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The block product into a zero accumulator, read at row `p` and column `c`: the sum over the 128 contracted
    positions of the products. -/
theorem prod_apply (A : FVec Ideal S2048x128 .bf16) (B : FVec Ideal S128x512 .bf16) (p : Fin 2048) (c : Fin 512) :
    matmul dot_S2048x128_S128x512_S2048x512_1_0_0_1_n_n none A B (constant (F := Ideal) S2048x512 .f32 0x00000000#32) (ix2 p c)
      = ∑ d : Fin 128, A (ix2 p d) * B (ix2 d c) := by
  simp only [matmul]
  rw [Ideal.matmul_constant_zero_apply, ← Equiv.sum_comp (ValueIdx.contrEquiv1 dot_S2048x128_S128x512_S2048x512_1_0_0_1_n_n 128 rfl rfl).symm]
  refine Finset.sum_congr rfl fun k _ => ?_
  have hk := ValueIdx.contrEquiv1_symm_val dot_S2048x128_S128x512_S2048x512_1_0_0_1_n_n 128 rfl rfl k
  have el : dot_S2048x128_S128x512_S2048x512_1_0_0_1_n_n.lhsIdx (ix2 p c) ((ValueIdx.contrEquiv1 dot_S2048x128_S128x512_S2048x512_1_0_0_1_n_n 128 rfl rfl).symm k) = ix2 p k := funext fun a => Fin.ext (by
    match a with
    | ⟨0, _⟩ => exact prod_lhs_0 _ _
    | ⟨1, _⟩ => exact (prod_lhs_1 _ _).trans hk)
  have er : dot_S2048x128_S128x512_S2048x512_1_0_0_1_n_n.rhsIdx (ix2 p c) ((ValueIdx.contrEquiv1 dot_S2048x128_S128x512_S2048x512_1_0_0_1_n_n 128 rfl rfl).symm k) = ix2 k c := funext fun a => Fin.ext (by
    match a with
    | ⟨0, _⟩ => exact (prod_rhs_0 _ _).trans hk
    | ⟨1, _⟩ => exact prod_rhs_1 _ _)
  rw [el, er]

/-- Row `p` of a 2048 × 384 feature block as a sample: feature `d` of row `a` sits in column `128 a + d`. -/
def sample (x0 : Vec Ideal S2048x384 .f32) (p : Fin 2048) (a : Fin 3) (d : Fin 128) : EReal :=
  x0 (ix2 p (⟨128 * a.val + d.val, by omega⟩ : Fin 384))

/-- The first two layers' pre-activations for the sample in row `p`, neighbour `n`, column `c` of 512, from the
    feature block and the three parameter blocks as they stand. -/
def preOf (x0 : Vec Ideal S2048x384 .f32) (x1 x2 : Vec Ideal S128x512 .bf16) (x3 : Vec Ideal S1x512 .f32) (p : Fin 2048) (n : Fin 2) (c : Fin 512) : EReal :=
  Net.preK (sample x0 p) (fun d c => x1 (ix2 d c)) (fun d c => x2 (ix2 d c)) (fun c => x3 (ix2 (0 : Fin 1) c)) n c

/-- The change of float format of the feature block is the identity. -/
theorem pay2_apply (x0 : Vec Ideal S2048x384 .f32) (p : Fin 2048) (j : Fin 384) :
    k0_pay2 (F := Ideal) x0 (ix2 p j) = x0 (ix2 p j) := by
  unfold k0_pay2
  exact congrFun (shapeCast_self x0 _) (ix2 p j)

/-! ## The feature block's three column ranges and the pre-activations -/

/-- Columns `128 a` to `128 a + 127` of the feature block after its change of format are row `a` of the sample: the
    slice at offset `o` reads column `o + d`. -/
theorem slice_sample (x0 : Vec Ideal S2048x384 .f32) (o : Nat) (h : S2048x384.Slices ![0, o] S2048x128) (a : Fin 3)
    (ho : o = 128 * a.val) (p : Fin 2048) (d : Fin 128) :
    extractStridedSlice S2048x128 ![0, o] (k0_pay2 (F := Ideal) x0) h (ix2 p d) = sample x0 p a d := by
  subst ho
  refine (slice2_axis1_apply (128 * a.val) (k0_pay2 (F := Ideal) x0) h p d (⟨128 * a.val + d.val, by omega⟩ : Fin 384) rfl).trans ?_
  exact pay2_apply x0 p _

/-- The agent's features against the first parameter block. -/
theorem pay5_apply (x0 : Vec Ideal S2048x384 .f32) (x1 : Vec Ideal S128x512 .bf16) (p : Fin 2048) (c : Fin 512) :
    k0_pay5 (F := Ideal) x0 x1 (ix2 p c) = ∑ d : Fin 128, sample x0 p 0 d * x1 (ix2 d c) := by
  unfold k0_pay5
  refine (prod_apply _ _ p c).trans (Finset.sum_congr rfl fun d _ => ?_)
  exact congrArg₂ (· * ·) (slice_sample x0 0 _ 0 rfl p d) (congrFun (shapeCast_self x1 _) (ix2 d c))

/-- A neighbour's features (row `a` of the sample, columns from `o = 128 a`) against the second parameter block. -/
theorem nbr_apply (x0 : Vec Ideal S2048x384 .f32) (x2 : Vec Ideal S128x512 .bf16) (o : Nat) (h : S2048x384.Slices ![0, o] S2048x128)
    (a : Fin 3) (ho : o = 128 * a.val) (p : Fin 2048) (c : Fin 512) :
    matmul dot_S2048x128_S128x512_S2048x512_1_0_0_1_n_n none (extractStridedSlice S2048x128 ![0, o] (k0_pay2 (F := Ideal) x0) h) (k0_pay3 (F := Ideal) x2)
        (constant (F := Ideal) S2048x512 .f32 0x00000000#32) (ix2 p c)
      = ∑ d : Fin 128, sample x0 p a d * x2 (ix2 d c) := by
  refine (prod_apply _ _ p c).trans (Finset.sum_congr rfl fun d _ => ?_)
  exact congrArg₂ (· * ·) (slice_sample x0 o h a ho p d) (congrFun (shapeCast_self x2 _) (ix2 d c))

/-- The bias row, broadcast over the block's rows. -/
theorem bias_apply (x3 : Vec Ideal S1x512 .f32) (h : S1x512.Broadcasts S2048x512) (p : Fin 2048) (c : Fin 512) :
    broadcastTo S2048x512 (k0_pay4 (F := Ideal) x3) h (ix2 p c) = x3 (ix2 (0 : Fin 1) c) :=
  (broadcastTo_1b_ab_apply _ h p c).trans (congrFun (shapeCast_self x3 _) (ix2 (0 : Fin 1) c))

/-- The first neighbour's pre-activations, all 512 columns. -/
theorem pay6_apply (x0 : Vec Ideal S2048x384 .f32) (x1 x2 : Vec Ideal S128x512 .bf16) (x3 : Vec Ideal S1x512 .f32) (p : Fin 2048) (c : Fin 512) :
    k0_pay6 (F := Ideal) x0 x1 x2 x3 (ix2 p c) = preOf x0 x1 x2 x3 p 0 c := by
  unfold k0_pay6 preOf Net.preK
  simp only [addf_apply]
  refine congrArg₂ (· + ·) (congrArg₂ (· + ·) (pay5_apply x0 x1 p c) ?_) (bias_apply x3 _ p c)
  exact nbr_apply x0 x2 128 _ 1 rfl p c

/-- The second neighbour's pre-activations, all 512 columns. -/
theorem pay7_apply (x0 : Vec Ideal S2048x384 .f32) (x1 x2 : Vec Ideal S128x512 .bf16) (x3 : Vec Ideal S1x512 .f32) (p : Fin 2048) (c : Fin 512) :
    k0_pay7 (F := Ideal) x0 x1 x2 x3 (ix2 p c) = preOf x0 x1 x2 x3 p 1 c := by
  unfold k0_pay7 preOf Net.preK
  simp only [addf_apply]
  refine congrArg₂ (· + ·) (congrArg₂ (· + ·) (pay5_apply x0 x1 p c) ?_) (bias_apply x3 _ p c)
  exact nbr_apply x0 x2 256 _ 2 rfl p c

/-! ## The rectified halves and the logistic weight -/

/-- The first 256 columns of a 512-column block. -/
theorem lo_apply (X : FVec Ideal S2048x512 .f32) (h : S2048x512.Slices ![0, 0] S2048x256) (p : Fin 2048) (j : Fin 256) :
    extractStridedSlice S2048x256 ![0, 0] X h (ix2 p j) = X (ix2 p (⟨j.val, by omega⟩ : Fin 512)) :=
  slice2_axis1_apply 0 X h p j _ (Nat.zero_add _).symm

/-- The last 256 columns of a 512-column block. -/
theorem hi_apply (X : FVec Ideal S2048x512 .f32) (h : S2048x512.Slices ![0, 256] S2048x256) (p : Fin 2048) (j : Fin 256) :
    extractStridedSlice S2048x256 ![0, 256] X h (ix2 p j) = X (ix2 p (⟨256 + j.val, by omega⟩ : Fin 512)) :=
  slice2_axis1_apply 256 X h p j _ rfl

/-- An exponential at an index is the exponential of the element. -/
theorem exp_apply {s : Shape} {φ : FTy} (a : FVec Ideal s φ) (i : s.Idx) : exp a i = Ideal.exp (a i) := rfl

/-- The first neighbour's hidden value: the rectified pre-activation at column `j`. -/
theorem pay8_apply (x0 : Vec Ideal S2048x384 .f32) (x1 x2 : Vec Ideal S128x512 .bf16) (x3 : Vec Ideal S1x512 .f32) (p : Fin 2048) (j : Fin 256) :
    k0_pay8 (F := Ideal) x0 x1 x2 x3 (ix2 p j) = max (preOf x0 x1 x2 x3 p 0 (⟨j.val, by omega⟩ : Fin 512)) 0 := by
  unfold k0_pay8
  simp only [maximumf_apply, broadcast_apply]
  exact congrArg₂ max ((lo_apply _ _ p j).trans (pay6_apply x0 x1 x2 x3 p _)) Ideal.ofBits_zero_f32

/-- The second neighbour's hidden value. -/
theorem pay9_apply (x0 : Vec Ideal S2048x384 .f32) (x1 x2 : Vec Ideal S128x512 .bf16) (x3 : Vec Ideal S1x512 .f32) (p : Fin 2048) (j : Fin 256) :
    k0_pay9 (F := Ideal) x0 x1 x2 x3 (ix2 p j) = max (preOf x0 x1 x2 x3 p 1 (⟨j.val, by omega⟩ : Fin 512)) 0 := by
  unfold k0_pay9
  simp only [maximumf_apply, broadcast_apply]
  exact congrArg₂ max ((lo_apply _ _ p j).trans (pay7_apply x0 x1 x2 x3 p _)) Ideal.ofBits_zero_f32

/-- The logistic weight of the two neighbours' logits (the rectified pre-activations at column `256 + j`). -/
theorem pay10_apply (x0 : Vec Ideal S2048x384 .f32) (x1 x2 : Vec Ideal S128x512 .bf16) (x3 : Vec Ideal S1x512 .f32) (p : Fin 2048) (j : Fin 256) :
    k0_pay10 (F := Ideal) x0 x1 x2 x3 (ix2 p j)
      = Ideal.div 1 (1 + Ideal.exp (0 - (max (preOf x0 x1 x2 x3 p 0 (⟨256 + j.val, by omega⟩ : Fin 512)) 0
                                          - max (preOf x0 x1 x2 x3 p 1 (⟨256 + j.val, by omega⟩ : Fin 512)) 0))) := by
  unfold k0_pay10
  simp only [divf_apply, addf_apply, subf_apply, maximumf_apply, broadcast_apply, exp_apply]
  have e0 : (Scalar.ofBits (F := Ideal) .f32 0x00000000#32) = 0 := Ideal.ofBits_zero_f32
  have e1 : (Scalar.ofBits (F := Ideal) .f32 0x3F800000#32) = 1 := Ideal.ofBits_one_f32
  rw [e0, e1, hi_apply, hi_apply, pay6_apply, pay7_apply]

end Cert.KernelIdeal.Body

end
-- ==== Proof.KernelBodyB.lean ====
/-
  The second half of the kernel's body for one row of its block, at the extended reals: the mixed hidden row through
  the third layer (two block products, a bias row, a rectifier) and the fourth (one block product, a bias row, a
  hyperbolic tangent), as plain sums over the contracted indices.
-/
import proofs.«428342_j73306501808520_3_alg».proof.Proof.Gen.KernelIdeal.Skeleton
import proofs.«428342_j73306501808520_3_alg».proof.Proof.Net
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## A block product started from zero is the sum over the contracted index -/

/-! ### Rows of 256 hidden values against the 256 × 256 weight block -/

/-- On the rows' axis the left operand is read at the result's row. -/
theorem lhs_hid_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
/-- On its contracted axis the left operand is read at the contraction index's one coordinate. -/
theorem lhs_hid_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- On its contracted axis the right operand is read at the contraction index's one coordinate. -/
theorem rhs_hid_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- On the columns' axis the right operand is read at the result's column. -/
theorem rhs_hid_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- Entry `(p, c)` of the product started from zero: `∑ k, A (p, k) * B (k, c)`, the contraction index re-indexed by
    its one coordinate `k < 256`. -/
theorem matmul_hid_apply (A : FVec Ideal S2048x256 .bf16) (B : FVec Ideal S256x256 .bf16) (p : Fin 2048) (c : Fin 256) :
    matmul dot_S2048x256_S256x256_S2048x256_1_0_0_1_n_n none A B (constant (F := Ideal) S2048x256 .f32 0x00000000#32) (ix2 p c)
      = ∑ k : Fin 256, A (ix2 p k) * B (ix2 k c) := by
  refine (Ideal.matmul_constant_zero_apply dot_S2048x256_S256x256_S2048x256_1_0_0_1_n_n none A B (ix2 p c)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p c) ((contrEquiv1 dot_S2048x256_S256x256_S2048x256_1_0_0_1_n_n 256 rfl rfl).symm k) = ix2 p k :=
    funext fun a => Fin.ext (by
      match a with
      | ⟨0, _⟩ => exact lhs_hid_0 _ _
      | ⟨1, _⟩ => exact (lhs_hid_1 _ _).trans hk)
  have er : dot_S2048x256_S256x256_S2048x256_1_0_0_1_n_n.rhsIdx (ix2 p c) ((contrEquiv1 dot_S2048x256_S256x256_S2048x256_1_0_0_1_n_n 256 rfl rfl).symm k) = ix2 k c :=
    funext fun a => Fin.ext (by
      match a with
      | ⟨0, _⟩ => exact (rhs_hid_0 _ _).trans hk
      | ⟨1, _⟩ => exact rhs_hid_1 _ _)
  rw [el, er]

/-! ### Rows of 384 features against the 384 × 256 weight block -/

/-- On the rows' axis the left operand is read at the result's row. -/
theorem lhs_fea_0 (i : S2048x256.Idx) (q : dot_S2048x384_S384x256_S2048x256_1_0_0_1_n_n.contr.Idx) :
    (dot_S2048x384_S384x256_S2048x256_1_0_0_1_n_n.lhsIdx i q 0).val = (i 0).val := by
  unfold DotDims.lhsIdx
  rw [dif_neg (show ¬(0 : Fin S2048x384.rank) ∈ dot_S2048x384_S384x256_S2048x256_1_0_0_1_n_n.lhsBatch by decide),
    dif_pos (show (0 : Fin S2048x384.rank) ∈ dot_S2048x384_S384x256_S2048x256_1_0_0_1_n_n.lhsNonContracting by decide)]
  rfl
/-- On its contracted axis the left operand is read at the contraction index's one coordinate. -/
theorem lhs_fea_1 (i : S2048x256.Idx) (q : dot_S2048x384_S384x256_S2048x256_1_0_0_1_n_n.contr.Idx) :
    (dot_S2048x384_S384x256_S2048x256_1_0_0_1_n_n.lhsIdx i q 1).val = (q ⟨0, by decide⟩).val :=
  dot_S2048x384_S384x256_S2048x256_1_0_0_1_n_n.lhsIdx_val_of_single rfl i q
/-- On its contracted axis the right operand is read at the contraction index's one coordinate. -/
theorem rhs_fea_0 (i : S2048x256.Idx) (q : dot_S2048x384_S384x256_S2048x256_1_0_0_1_n_n.contr.Idx) :
    (dot_S2048x384_S384x256_S2048x256_1_0_0_1_n_n.rhsIdx i q 0).val = (q ⟨0, by decide⟩).val :=
  dot_S2048x384_S384x256_S2048x256_1_0_0_1_n_n.rhsIdx_val_of_single rfl i q
/-- On the columns' axis the right operand is read at the result's column. -/
theorem rhs_fea_1 (i : S2048x256.Idx) (q : dot_S2048x384_S384x256_S2048x256_1_0_0_1_n_n.contr.Idx) :
    (dot_S2048x384_S384x256_S2048x256_1_0_0_1_n_n.rhsIdx i q 1).val = (i 1).val := by
  unfold DotDims.rhsIdx
  rw [dif_neg (show ¬(1 : Fin S384x256.rank) ∈ dot_S2048x384_S384x256_S2048x256_1_0_0_1_n_n.rhsBatch by decide),
    dif_pos (show (1 : Fin S384x256.rank) ∈ dot_S2048x384_S384x256_S2048x256_1_0_0_1_n_n.rhsNonContracting by decide)]
  rfl

/-- Entry `(p, c)` of the product started from zero: `∑ k, A (p, k) * B (k, c)`, the contraction index re-indexed by
    its one coordinate `k < 384`. -/
theorem matmul_fea_apply (A : FVec Ideal S2048x384 .bf16) (B : FVec Ideal S384x256 .bf16) (p : Fin 2048) (c : Fin 256) :
    matmul dot_S2048x384_S384x256_S2048x256_1_0_0_1_n_n none A B (constant (F := Ideal) S2048x256 .f32 0x00000000#32) (ix2 p c)
      = ∑ k : Fin 384, A (ix2 p k) * B (ix2 k c) := by
  refine (Ideal.matmul_constant_zero_apply dot_S2048x384_S384x256_S2048x256_1_0_0_1_n_n none A B (ix2 p c)).trans ?_
  rw [← Equiv.sum_comp (contrEquiv1 dot_S2048x384_S384x256_S2048x256_1_0_0_1_n_n 384 rfl rfl).symm]
  refine Finset.sum_congr rfl fun k _ => ?_
  have hk := contrEquiv1_symm_val dot_S2048x384_S384x256_S2048x256_1_0_0_1_n_n 384 rfl rfl k
  have el : dot_S2048x384_S384x256_S2048x256_1_0_0_1_n_n.lhsIdx (ix2 p c) ((contrEquiv1 dot_S2048x384_S384x256_S2048x256_1_0_0_1_n_n 384 rfl rfl).symm k) = ix2 p k :=
    funext fun a => Fin.ext (by
      match a with
      | ⟨0, _⟩ => exact lhs_fea_0 _ _
      | ⟨1, _⟩ => exact (lhs_fea_1 _ _).trans hk)
  have er : dot_S2048x384_S384x256_S2048x256_1_0_0_1_n_n.rhsIdx (ix2 p c) ((contrEquiv1 dot_S2048x384_S384x256_S2048x256_1_0_0_1_n_n 384 rfl rfl).symm k) = ix2 k c :=
    funext fun a => Fin.ext (by
      match a with
      | ⟨0, _⟩ => exact (rhs_fea_0 _ _).trans hk
      | ⟨1, _⟩ => exact rhs_fea_1 _ _)
  rw [el, er]

/-! ### Rows of 256 third-layer values against the 256 × 8 weight block -/

/-- On the rows' axis the left operand is read at the result's row. -/
theorem lhs_out_0 (i : S2048x8.Idx) (q : dot_S2048x256_S256x8_S2048x8_1_0_0_1_n_n.contr.Idx) :
    (dot_S2048x256_S256x8_S2048x8_1_0_0_1_n_n.lhsIdx i q 0).val = (i 0).val := by
  unfold DotDims.lhsIdx
  rw [dif_neg (show ¬(0 : Fin S2048x256.rank) ∈ dot_S2048x256_S256x8_S2048x8_1_0_0_1_n_n.lhsBatch by decide),
    dif_pos (show (0 : Fin S2048x256.rank) ∈ dot_S2048x256_S256x8_S2048x8_1_0_0_1_n_n.lhsNonContracting by decide)]
  rfl
/-- On its contracted axis the left operand is read at the contraction index's one coordinate. -/
theorem lhs_out_1 (i : S2048x8.Idx) (q : dot_S2048x256_S256x8_S2048x8_1_0_0_1_n_n.contr.Idx) :
    (dot_S2048x256_S256x8_S2048x8_1_0_0_1_n_n.lhsIdx i q 1).val = (q ⟨0, by decide⟩).val :=
  dot_S2048x256_S256x8_S2048x8_1_0_0_1_n_n.lhsIdx_val_of_single rfl i q
/-- On its contracted axis the right operand is read at the contraction index's one coordinate. -/
theorem rhs_out_0 (i : S2048x8.Idx) (q : dot_S2048x256_S256x8_S2048x8_1_0_0_1_n_n.contr.Idx) :
    (dot_S2048x256_S256x8_S2048x8_1_0_0_1_n_n.rhsIdx i q 0).val = (q ⟨0, by decide⟩).val :=
  dot_S2048x256_S256x8_S2048x8_1_0_0_1_n_n.rhsIdx_val_of_single rfl i q
/-- On the columns' axis the right operand is read at the result's column. -/
theorem rhs_out_1 (i : S2048x8.Idx) (q : dot_S2048x256_S256x8_S2048x8_1_0_0_1_n_n.contr.Idx) :
    (dot_S2048x256_S256x8_S2048x8_1_0_0_1_n_n.rhsIdx i q 1).val = (i 1).val := by
  unfold DotDims.rhsIdx
  rw [dif_neg (show ¬(1 : Fin S256x8.rank) ∈ dot_S2048x256_S256x8_S2048x8_1_0_0_1_n_n.rhsBatch by decide),
    dif_pos (show (1 : Fin S256x8.rank) ∈ dot_S2048x256_S256x8_S2048x8_1_0_0_1_n_n.rhsNonContracting by decide)]
  rfl

/-- Entry `(p, c)` of the product started from zero: `∑ k, A (p, k) * B (k, c)`, the contraction index re-indexed by
    its one coordinate `k < 256`. -/
theorem matmul_out_apply (A : FVec Ideal S2048x256 .bf16) (B : FVec Ideal S256x8 .bf16) (p : Fin 2048) (c : Fin 8) :
    matmul dot_S2048x256_S256x8_S2048x8_1_0_0_1_n_n none A B (constant (F := Ideal) S2048x8 .f32 0x00000000#32) (ix2 p c)
      = ∑ k : Fin 256, A (ix2 p k) * B (ix2 k c) := by
  refine (Ideal.matmul_constant_zero_apply dot_S2048x256_S256x8_S2048x8_1_0_0_1_n_n none A B (ix2 p c)).trans ?_
  rw [← Equiv.sum_comp (contrEquiv1 dot_S2048x256_S256x8_S2048x8_1_0_0_1_n_n 256 rfl rfl).symm]
  refine Finset.sum_congr rfl fun k _ => ?_
  have hk := contrEquiv1_symm_val dot_S2048x256_S256x8_S2048x8_1_0_0_1_n_n 256 rfl rfl k
  have el : dot_S2048x256_S256x8_S2048x8_1_0_0_1_n_n.lhsIdx (ix2 p c) ((contrEquiv1 dot_S2048x256_S256x8_S2048x8_1_0_0_1_n_n 256 rfl rfl).symm k) = ix2 p k :=
    funext fun a => Fin.ext (by
      match a with
      | ⟨0, _⟩ => exact lhs_out_0 _ _
      | ⟨1, _⟩ => exact (lhs_out_1 _ _).trans hk)
  have er : dot_S2048x256_S256x8_S2048x8_1_0_0_1_n_n.rhsIdx (ix2 p c) ((contrEquiv1 dot_S2048x256_S256x8_S2048x8_1_0_0_1_n_n 256 rfl rfl).symm k) = ix2 k c :=
    funext fun a => Fin.ext (by
      match a with
      | ⟨0, _⟩ => exact (rhs_out_0 _ _).trans hk
      | ⟨1, _⟩ => exact rhs_out_1 _ _)
  rw [el, er]

/-! ## The pointwise hyperbolic tangent at an index -/

/-- A hyperbolic tangent at an index is the extended reals' hyperbolic tangent of the element. -/
theorem tanh_apply {s : Shape} {φ : FTy} (a : FVec Ideal s φ) (i : s.Idx) : tanh a i = Ideal.tanh (a i) := rfl

/-- The stored value at row `p`, column `o`, from the feature block in the narrow format (`v2`), the two hidden
    blocks (`v23`, `v29`), the weight block (`v40`) and the last two layers' parameter blocks. -/
theorem pay1_apply (v2 : FVec Ideal S2048x384 .bf16) (v23 v29 v40 : FVec Ideal S2048x256 .f32)
    (x4 : Vec Ideal S256x256 .bf16) (x5 : Vec Ideal S384x256 .bf16) (x6 : Vec Ideal S1x256 .f32)
    (x7 : Vec Ideal S256x8 .bf16) (x8 : Vec Ideal S1x8 .f32) (p : Fin 2048) (o : Fin 8) :
    k0_pay1 (F := Ideal) v2 v23 v29 v40 x4 x5 x6 x7 x8 (ix2 p o)
      = Ideal.tanh ((∑ k : Fin 256,
            max (((∑ j : Fin 256, (v29 (ix2 p j) + v40 (ix2 p j) * (v23 (ix2 p j) - v29 (ix2 p j))) * x4 (ix2 j k))
                  + (∑ j : Fin 384, v2 (ix2 p j) * x5 (ix2 j k))) + x6 (ix2 (0 : Fin 1) k)) 0 * x7 (ix2 k o))
          + x8 (ix2 (0 : Fin 1) o)) := by
  unfold k0_pay1
  -- the five casts to the same shape are the identity
  rw [shapeCast_self, shapeCast_self, shapeCast_self, shapeCast_self, shapeCast_self]
  -- the fourth layer: the hyperbolic tangent of the block product at (p, o) plus the bias row at o
  rw [tanh_apply, addf_apply, matmul_out_apply, broadcastTo_1b_ab_apply]
  refine congrArg Ideal.tanh (congrArg (· + x8 (ix2 (0 : Fin 1) o))
    (Finset.sum_congr rfl fun k _ => congrArg (· * x7 (ix2 k o)) ?_))
  -- the third layer at (p, k): the narrowing is the identity, the rectifier is the maximum with the zero word's value,
  -- and the two block products and the bias row are read at (p, k)
  rw [truncf_apply, maximumf_apply, addf_apply, addf_apply, matmul_hid_apply, matmul_fea_apply,
    broadcastTo_1b_ab_apply, broadcast_apply, Ideal.ofBits_def, Ideal.ofBits_zero_f32]
  -- the mixed hidden value at (p, j): the narrowing is the identity and the three pointwise operations are the
  -- extended reals'
  refine congrArg (fun s => max ((s + ∑ j : Fin 384, v2 (ix2 p j) * x5 (ix2 j k)) + x6 (ix2 (0 : Fin 1) k)) 0)
    (Finset.sum_congr rfl fun j _ => congrArg (· * x4 (ix2 j k)) ?_)
  rw [truncf_apply, addf_apply, mulf_apply, subf_apply]

end Cert.KernelIdeal.Body

end
-- ==== Proof.KernelBody.lean ====
/-
  What the kernel's body stores for one row of its block, at the extended reals: entry `(p, o)` of the stored
  2048 × 8 block is the network's result (`Net.outK`, the kernel's layout) for the sample in row `p` of the feature
  block, with the weights read off the weight blocks as they stand.
-/
import proofs.«428342_j73306501808520_3_alg».proof.Proof.KernelBodyA
import proofs.«428342_j73306501808520_3_alg».proof.Proof.KernelBodyB

noncomputable section

namespace Cert.KernelIdeal.Body

open Cert.KernelIdeal Cert.KernelIdeal.Gen Idealize.ShloMosaic Idealize.ShloMosaic.ValueIdx

/-- The sample's 384 features in one row are the block's row. -/
theorem flat_sample (x0 : Vec Ideal S2048x384 .f32) (p : Fin 2048) (j : Fin 384) :
    Net.flat (sample x0 p) j = x0 (ix2 p j) := by
  unfold Net.flat sample
  exact congrArg (fun q : Fin 384 => x0 (ix2 p q)) (Fin.ext (Nat.div_add_mod j.val 128))

/-- The stored value at row `p`, column `o`. -/
theorem pay_apply (x0 : Vec Ideal S2048x384 .f32) (x1 x2 : Vec Ideal S128x512 .bf16) (x3 : Vec Ideal S1x512 .f32)
    (x4 : Vec Ideal S256x256 .bf16) (x5 : Vec Ideal S384x256 .bf16) (x6 : Vec Ideal S1x256 .f32)
    (x7 : Vec Ideal S256x8 .bf16) (x8 : Vec Ideal S1x8 .f32) (p : Fin 2048) (o : Fin 8) :
    k0_pay1 (F := Ideal) (k0_pay2 x0) (k0_pay8 x0 x1 x2 x3) (k0_pay9 x0 x1 x2 x3) (k0_pay10 x0 x1 x2 x3) x4 x5 x6 x7 x8 (ix2 p o)
      = Net.outK (sample x0 p) (fun d c => x1 (ix2 d c)) (fun d c => x2 (ix2 d c)) (fun c => x3 (ix2 (0 : Fin 1) c))
          (fun j k => x4 (ix2 j k)) (fun j k => x5 (ix2 j k)) (fun k => x6 (ix2 (0 : Fin 1) k))
          (fun k o' => x7 (ix2 k o')) (fun o' => x8 (ix2 (0 : Fin 1) o')) o := by
  rw [pay1_apply]
  unfold Net.outK Net.featK Net.hidK Net.sigmix
  simp only [pay2_apply, pay8_apply, pay9_apply, pay10_apply, flat_sample, preOf]

end Cert.KernelIdeal.Body

end
-- ==== Proof.KernelWindowsA.lean ====
/-
  The arrays the kernel's nine input windows read, as the region finds them, at the extended reals: each is a
  re-arrangement of an argument array made before the launch (a reshape of the samples; the first two layers' weights
  transposed, laid side by side and cut after 128 rows; their biases end to end as one row; the third layer's weights
  transposed and cut after 256 rows; the fourth's transposed; the last two biases as one row each). A change of float
  format is the identity here, so every entry is an entry of an argument.
-/
import proofs.«428342_j73306501808520_3_alg».proof.Proof.Gen.KernelIdeal.Frame
import proofs.«428342_j73306501808520_3_alg».proof.Proof.Net
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Windows

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The first two layers' weights, each transposed, laid side by side along the columns and changed of float format,
    read at row `r` (an input feature) and column `col`: the format change is the identity on extended reals; a column
    below 256 falls in the first piece, whose transpose reads row `col` of the first layer's weights at `r`; a column
    from 256 on falls in the second piece at `col - 256`, whose transpose reads that row of the second layer's. -/
theorem sideBySide_apply (A1 A3 : FVec Ideal S256x256 .f32) (r : Fin 256) (col : Fin 512) :
    (truncf .bf16 (concatenate S256x512 1 [⟨S256x256, transpose S256x256 [1, 0] A1 transposes_S256x256_S256x256_1_0⟩,
        ⟨S256x256, transpose S256x256 [1, 0] A3 transposes_S256x256_S256x256_1_0⟩] concatenates_S256x256_S256x256_S256x512_d1 : FVec Ideal S256x512 .f32)
        bitsLt_bf16_f32 : FVec Ideal S256x512 .bf16) (ix2 r col)
      = Net.w12 (fun j r => A1 (ix2 j r)) (fun j r => A3 (ix2 j r)) r col := by
  refine Eq.trans (truncf_apply (φ := .f32) (ψ := .bf16) _ bitsLt_bf16_f32 (ix2 r col)) ?_
  unfold Net.w12
  by_cases h : col.val < 256
  · rw [dif_pos h]
    -- the column is in the first piece: the same two coordinates there
    refine (concatenate_pair_apply_left (t := S256x512) (s₁ := S256x256) (s₂ := S256x256) 1 _ _ _ (ix2 r col) rfl
      (ix2 r (⟨col.val, h⟩ : Fin 256)) (fun b => match b with | ⟨0, _⟩ => rfl | ⟨1, _⟩ => rfl)).trans ?_
    exact transpose_ix2_apply A1 _ r (⟨col.val, h⟩ : Fin 256)
  · rw [dif_neg h]
    -- the column is in the second piece, the first piece's 256 columns less: (col - 256) + 256 = col
    refine (concatenate_pair_apply_right (t := S256x512) (s₁ := S256x256) (s₂ := S256x256) 1 _ _ _ (ix2 r col) rfl rfl
      (ix2 r (⟨col.val - 256, by omega⟩ : Fin 256))
      (fun b => match b with | ⟨0, _⟩ => fun _ => rfl | ⟨1, _⟩ => fun hb => absurd rfl hb)
      (by show col.val - 256 + 256 = col.val; omega)).trans ?_
    exact transpose_ix2_apply A3 _ r (⟨col.val - 256, by omega⟩ : Fin 256)

/-- The first two layers' biases end to end, read at `col`: below 256 the first piece at `col`, from 256 on the
    second piece at `col - 256`. -/
theorem endToEnd_apply (A2 A4 : FVec Ideal S256 .f32) (col : Fin 512) :
    (concatenate S512 0 [⟨S256, A2⟩, ⟨S256, A4⟩] concatenates_S256_S256_S512_d0 : FVec Ideal S512 .f32) (ix1 col)
      = Net.bias12 (fun j => A2 (ix1 j)) (fun j => A4 (ix1 j)) col := by
  unfold Net.bias12
  by_cases h : col.val < 256
  · rw [dif_pos h]
    exact concatenate_pair_apply_left (t := S512) (s₁ := S256) (s₂ := S256) 0 _ _ _ (ix1 col) rfl
      (ix1 (⟨col.val, h⟩ : Fin 256)) (fun b => match b with | ⟨0, _⟩ => rfl)
  · rw [dif_neg h]
    -- (col - 256) + 256 = col
    exact concatenate_pair_apply_right (t := S512) (s₁ := S256) (s₂ := S256) 0 _ _ _ (ix1 col) rfl rfl
      (ix1 (⟨col.val - 256, by omega⟩ : Fin 256))
      (fun b => match b with | ⟨0, _⟩ => fun hb => absurd rfl hb)
      (by show col.val - 256 + 256 = col.val; omega)

/-- The samples as 384-feature rows: column `j` of row `b` is feature `j % 128` of row `j / 128` of sample `b`. -/
theorem V_v0 (c : Dev nD) (b : Fin 65536) (j : Fin 384) :
    (V m c main_v0 : S65536x384.Idx → EReal) (ix2 b j)
      = (m ((c : Thread nD τ).loc main_arg0) : S65536x3x128.Idx → EReal) (ix3 b (⟨j.val / 128, by omega⟩ : Fin 3) (⟨j.val % 128, Nat.mod_lt _ (by norm_num)⟩ : Fin 128)) := by
  -- the array is the reshape of the samples
  have e : (V m c main_v0 : S65536x384.Idx → EReal)
      = shapeCast S65536x384 (m ((c : Thread nD τ).loc main_arg0) : S65536x3x128.Idx → EReal) shapeCasts_S65536x3x128_S65536x384 := by
    dsimp only [Gen.V, Gen.hostOps0]; after_results; rfl
  rw [e]
  -- a reshape keeps the row-major position: (b * 3 + j / 128) * 128 + j % 128 = b * 384 + j
  refine shapeCast_apply (s := S65536x3x128) (t := S65536x384) _ _ (ix2 b j)
    (ix3 b (⟨j.val / 128, by omega⟩ : Fin 3) (⟨j.val % 128, Nat.mod_lt _ (by norm_num)⟩ : Fin 128)) ?_
  rw [Shape.rowMajor_val_two, Shape.rowMajor_val_three]
  show (b.val * 3 + j.val / 128) * 128 + j.val % 128 = b.val * 384 + j.val
  omega

/-- Rows 0–127 of the first two layers' weights, transposed and side by side. -/
theorem V_v5 (c : Dev nD) (d : Fin 128) (col : Fin 512) :
    (V m c main_v5 : S128x512.Idx → EReal) (ix2 d col)
      = Net.w12 (fun j r => (m ((c : Thread nD τ).loc main_arg1) : S256x256.Idx → EReal) (ix2 j r))
          (fun j r => (m ((c : Thread nD τ).loc main_arg3) : S256x256.Idx → EReal) (ix2 j r)) (⟨d.val, by omega⟩ : Fin 256) col := by
  -- the array is the rows from 0 of the side-by-side weights
  have e : (V m c main_v5 : S128x512.Idx → EReal)
      = extractStridedSlice S128x512 ![0, 0]
          (truncf .bf16 (concatenate S256x512 1 [⟨S256x256, transpose S256x256 [1, 0] (m ((c : Thread nD τ).loc main_arg1) : FVec Ideal S256x256 .f32) transposes_S256x256_S256x256_1_0⟩,
            ⟨S256x256, transpose S256x256 [1, 0] (m ((c : Thread nD τ).loc main_arg3) : FVec Ideal S256x256 .f32) transposes_S256x256_S256x256_1_0⟩] concatenates_S256x256_S256x256_S256x512_d1 : FVec Ideal S256x512 .f32)
            bitsLt_bf16_f32 : FVec Ideal S256x512 .bf16) slices_S256x512_S128x512_0_0 := by
    dsimp only [Gen.V, Gen.hostOps0]; after_results
  rw [e]
  -- row d of the cut is row 0 + d of the whole
  refine (slice2_axis0_apply 0 _ _ d col (⟨d.val, by omega⟩ : Fin 256) (Nat.zero_add _).symm).trans ?_
  exact sideBySide_apply _ _ _ _

/-- Rows 128–255 of the same. -/
theorem V_v6 (c : Dev nD) (d : Fin 128) (col : Fin 512) :
    (V m c main_v6 : S128x512.Idx → EReal) (ix2 d col)
      = Net.w12 (fun j r => (m ((c : Thread nD τ).loc main_arg1) : S256x256.Idx → EReal) (ix2 j r))
          (fun j r => (m ((c : Thread nD τ).loc main_arg3) : S256x256.Idx → EReal) (ix2 j r)) (⟨128 + d.val, by omega⟩ : Fin 256) col := by
  -- the array is the rows from 128 of the side-by-side weights
  have e : (V m c main_v6 : S128x512.Idx → EReal)
      = extractStridedSlice S128x512 ![128, 0]
          (truncf .bf16 (concatenate S256x512 1 [⟨S256x256, transpose S256x256 [1, 0] (m ((c : Thread nD τ).loc main_arg1) : FVec Ideal S256x256 .f32) transposes_S256x256_S256x256_1_0⟩,
            ⟨S256x256, transpose S256x256 [1, 0] (m ((c : Thread nD τ).loc main_arg3) : FVec Ideal S256x256 .f32) transposes_S256x256_S256x256_1_0⟩] concatenates_S256x256_S256x256_S256x512_d1 : FVec Ideal S256x512 .f32)
            bitsLt_bf16_f32 : FVec Ideal S256x512 .bf16) slices_S256x512_S128x512_128_0 := by
    dsimp only [Gen.V, Gen.hostOps0]; after_results
  rw [e]
  -- row d of the cut is row 128 + d of the whole
  refine (slice2_axis0_apply 128 _ _ d col (⟨128 + d.val, by omega⟩ : Fin 256) rfl).trans ?_
  exact sideBySide_apply _ _ _ _

/-- The first two layers' biases end to end, as one row. -/
theorem V_v8 (c : Dev nD) (col : Fin 512) :
    (V m c main_v8 : S1x512.Idx → EReal) (ix2 (0 : Fin 1) col)
      = Net.bias12 (fun j => (m ((c : Thread nD τ).loc main_arg2) : S256.Idx → EReal) (ix1 j))
          (fun j => (m ((c : Thread nD τ).loc main_arg4) : S256.Idx → EReal) (ix1 j)) col := by
  -- the array is the end-to-end biases with a unit axis put in front
  have e : (V m c main_v8 : S1x512.Idx → EReal)
      = shapeCast S1x512 (concatenate S512 0 [⟨S256, (m ((c : Thread nD τ).loc main_arg2) : FVec Ideal S256 .f32)⟩,
          ⟨S256, (m ((c : Thread nD τ).loc main_arg4) : FVec Ideal S256 .f32)⟩] concatenates_S256_S256_S512_d0 : FVec Ideal S512 .f32)
          shapeCasts_S512_S1x512 := by
    dsimp only [Gen.V, Gen.hostOps0]; after_results; rfl
  rw [e]
  -- the unit axis's coordinate does not matter: entry (0, col) of the row is entry col of the vector
  refine (shapeCast_a_1a_apply _ _ (0 : Fin 1) col).trans ?_
  exact endToEnd_apply _ _ _

end Cert.KernelIdeal.Windows

end
-- ==== Proof.KernelWindowsB.lean ====
/-
  The arrays the kernel's nine input windows read, as the region finds them, at the extended reals: each is a
  re-arrangement of an argument array made before the launch (a reshape of the samples; the first two layers' weights
  transposed, laid side by side and cut after 128 rows; their biases end to end as one row; the third layer's weights
  transposed and cut after 256 rows; the fourth's transposed; the last two biases as one row each). A change of float
  format is the identity here, so every entry is an entry of an argument.
-/
import proofs.«428342_j73306501808520_3_alg».proof.Proof.Gen.KernelIdeal.Frame
import proofs.«428342_j73306501808520_3_alg».proof.Proof.Net
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Windows

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Rows 0–255 of the third layer's weights transposed. -/
theorem V_v11 (c : Dev nD) (j k : Fin 256) :
    (V m c main_v11 : S256x256.Idx → EReal) (ix2 j k)
      = (m ((c : Thread nD τ).loc main_arg5) : S256x640.Idx → EReal) (ix2 k (⟨j.val, by omega⟩ : Fin 640)) := by
  -- the array is the third layer's weights transposed, in the narrower float format, cut to rows 0–255
  have e : (V m c main_v11 : S256x256.Idx → EReal)
      = extractStridedSlice S256x256 ![0, 0]
          (truncf (F := Ideal) (φ := .f32) .bf16
            (transpose S640x256 [1, 0] (m ((c : Thread nD τ).loc main_arg5) : S256x640.Idx → EReal) transposes_S256x640_S640x256_1_0)
            bitsLt_bf16_f32)
          slices_S640x256_S256x256_0_0 := by
    dsimp only [Gen.V, Gen.hostOps0]; after_results
  refine (congrFun e _).trans ?_
  -- row `j` of the cut is row `0 + j` of the transposed array
  refine (slice2_axis0_apply 0 _ slices_S640x256_S256x256_0_0 j k (⟨j.val, by omega⟩ : Fin 640) (Nat.zero_add _).symm).trans ?_
  -- the change of float format is the identity on the extended reals
  refine (truncf_apply (φ := .f32) (ψ := .bf16) _ bitsLt_bf16_f32 _).trans ?_
  -- entry `(j, k)` of the transpose is entry `(k, j)` of the argument
  exact transpose_ix2_apply _ transposes_S256x640_S640x256_1_0 (⟨j.val, by omega⟩ : Fin 640) k

/-- Rows 256–639 of the same. -/
theorem V_v12 (c : Dev nD) (j : Fin 384) (k : Fin 256) :
    (V m c main_v12 : S384x256.Idx → EReal) (ix2 j k)
      = (m ((c : Thread nD τ).loc main_arg5) : S256x640.Idx → EReal) (ix2 k (⟨256 + j.val, by omega⟩ : Fin 640)) := by
  -- the array is the third layer's weights transposed, in the narrower float format, cut to rows 256–639
  have e : (V m c main_v12 : S384x256.Idx → EReal)
      = extractStridedSlice S384x256 ![256, 0]
          (truncf (F := Ideal) (φ := .f32) .bf16
            (transpose S640x256 [1, 0] (m ((c : Thread nD τ).loc main_arg5) : S256x640.Idx → EReal) transposes_S256x640_S640x256_1_0)
            bitsLt_bf16_f32)
          slices_S640x256_S384x256_256_0 := by
    dsimp only [Gen.V, Gen.hostOps0]; after_results
  refine (congrFun e _).trans ?_
  -- row `j` of the cut is row `256 + j` of the transposed array
  refine (slice2_axis0_apply 256 _ slices_S640x256_S384x256_256_0 j k (⟨256 + j.val, by omega⟩ : Fin 640) rfl).trans ?_
  -- the change of float format is the identity on the extended reals
  refine (truncf_apply (φ := .f32) (ψ := .bf16) _ bitsLt_bf16_f32 _).trans ?_
  -- entry `(256 + j, k)` of the transpose is entry `(k, 256 + j)` of the argument
  exact transpose_ix2_apply _ transposes_S256x640_S640x256_1_0 (⟨256 + j.val, by omega⟩ : Fin 640) k

/-- The third layer's bias as one row. -/
theorem V_v15 (c : Dev nD) (k : Fin 256) :
    (V m c main_v15 : S1x256.Idx → EReal) (ix2 (0 : Fin 1) k) = (m ((c : Thread nD τ).loc main_arg6) : S256.Idx → EReal) (ix1 k) := by
  -- the array is the bias vector with a leading unit axis added
  have e : (V m c main_v15 : S1x256.Idx → EReal)
      = shapeCast S1x256 (m ((c : Thread nD τ).loc main_arg6) : S256.Idx → EReal) shapeCasts_S256_S1x256 := by
    dsimp only [Gen.V, Gen.hostOps0]; after_results; rfl
  refine (congrFun e _).trans ?_
  -- entry `(0, k)` of the row has the row-major position `k` of the vector
  exact shapeCast_a_1a_apply _ shapeCasts_S256_S1x256 0 k

/-- The fourth layer's weights transposed. -/
theorem V_v14 (c : Dev nD) (k : Fin 256) (o : Fin 8) :
    (V m c main_v14 : S256x8.Idx → EReal) (ix2 k o) = (m ((c : Thread nD τ).loc main_arg7) : S8x256.Idx → EReal) (ix2 o k) := by
  -- the array is the fourth layer's weights transposed, in the narrower float format
  have e : (V m c main_v14 : S256x8.Idx → EReal)
      = truncf (F := Ideal) (φ := .f32) .bf16
          (transpose S256x8 [1, 0] (m ((c : Thread nD τ).loc main_arg7) : S8x256.Idx → EReal) transposes_S8x256_S256x8_1_0)
          bitsLt_bf16_f32 := by
    dsimp only [Gen.V, Gen.hostOps0]; after_results
  refine (congrFun e _).trans ?_
  -- the change of float format is the identity on the extended reals
  refine (truncf_apply (φ := .f32) (ψ := .bf16) _ bitsLt_bf16_f32 _).trans ?_
  -- entry `(k, o)` of the transpose is entry `(o, k)` of the argument
  exact transpose_ix2_apply _ transposes_S8x256_S256x8_1_0 k o

/-- The fourth layer's bias as one row. -/
theorem V_v16 (c : Dev nD) (o : Fin 8) :
    (V m c main_v16 : S1x8.Idx → EReal) (ix2 (0 : Fin 1) o) = (m ((c : Thread nD τ).loc main_arg8) : S8.Idx → EReal) (ix1 o) := by
  -- the array is the bias vector with a leading unit axis added
  have e : (V m c main_v16 : S1x8.Idx → EReal)
      = shapeCast S1x8 (m ((c : Thread nD τ).loc main_arg8) : S8.Idx → EReal) shapeCasts_S8_S1x8 := by
    dsimp only [Gen.V, Gen.hostOps0]; after_results; rfl
  refine (congrFun e _).trans ?_
  -- entry `(0, o)` of the row has the row-major position `o` of the vector
  exact shapeCast_a_1a_apply _ shapeCasts_S8_S1x8 0 o

end Cert.KernelIdeal.Windows

end
-- ==== Proof.NetLayout.lean ====
/-
  The kernel's layout of the weights computes the same network as the reference's: every contraction is only cut in
  two, and each weight block is the transposed weight matrix read at the matching row and column.
-/
import proofs.«428342_j73306501808520_3_alg».proof.Proof.Net
import Idealize.ShloMosaic.PureOps.Ideal
import Mathlib.Algebra.BigOperators.Fin

noncomputable section

namespace Cert.Net

open Idealize.ShloMosaic

/-! ## A finite sum cut in two -/

/-- A sum over 256 indices is the sum over the first 128 plus the sum over the last 128. -/
theorem sum256 (f : Fin 256 → EReal) :
    ∑ d, f d = (∑ d : Fin 128, f ⟨d.val, by omega⟩) + ∑ d : Fin 128, f ⟨128 + d.val, by omega⟩ :=
  Fin.sum_univ_add (a := 128) (b := 128) f

/-- A sum over 640 indices is the sum over the first 256 plus the sum over the last 384. -/
theorem sum640 (f : Fin 640 → EReal) :
    ∑ j, f j = (∑ j : Fin 256, f ⟨j.val, by omega⟩) + ∑ j : Fin 384, f ⟨256 + j.val, by omega⟩ :=
  Fin.sum_univ_add (a := 256) (b := 384) f

/-! ## The pieces of the concatenated rows -/

/-- The first 128 entries of the paired row are the agent's. -/
theorem agents_lo (x : Fin 3 → Fin 128 → EReal) (n : Fin 2) (d : Fin 128) :
    agents x n ⟨d.val, by omega⟩ = x 0 d := by
  unfold agents
  exact dif_pos (show (⟨d.val, by omega⟩ : Fin 256).val < 128 from d.isLt)

/-- The last 128 entries of the paired row are neighbour `n`'s: `128 + d - 128 = d`. -/
theorem agents_hi (x : Fin 3 → Fin 128 → EReal) (n : Fin 2) (d : Fin 128) :
    agents x n ⟨128 + d.val, by omega⟩ = x ⟨n.val + 1, by omega⟩ d := by
  unfold agents
  refine (dif_neg (show ¬ (⟨128 + d.val, by omega⟩ : Fin 256).val < 128 from by simp)).trans ?_
  exact congrArg (x ⟨n.val + 1, by omega⟩) (Fin.ext (by simp))

/-- The first 256 entries of the third layer's input are the hidden row. -/
theorem cat_lo (H : Fin 256 → EReal) (x : Fin 3 → Fin 128 → EReal) (j : Fin 256) :
    cat H x ⟨j.val, by omega⟩ = H j := by
  unfold cat
  exact dif_pos (show (⟨j.val, by omega⟩ : Fin 640).val < 256 from j.isLt)

/-- The last 384 entries of the third layer's input are the sample's features: `256 + j - 256 = j`. -/
theorem cat_hi (H : Fin 256 → EReal) (x : Fin 3 → Fin 128 → EReal) (j : Fin 384) :
    cat H x ⟨256 + j.val, by omega⟩ = flat x j := by
  unfold cat
  refine (dif_neg (show ¬ (⟨256 + j.val, by omega⟩ : Fin 640).val < 256 from by simp)).trans ?_
  exact congrArg (flat x) (Fin.ext (by simp))

/-- Column `j < 256` of the side-by-side weights is the first layer's row `j`. -/
theorem w12_lo (W1 W2 : Fin 256 → Fin 256 → EReal) (r : Fin 256) (j : Fin 256) :
    w12 W1 W2 r ⟨j.val, by omega⟩ = W1 j r := by
  unfold w12
  exact dif_pos (show (⟨j.val, by omega⟩ : Fin 512).val < 256 from j.isLt)

/-- Column `256 + j` of the side-by-side weights is the second layer's row `j`. -/
theorem w12_hi (W1 W2 : Fin 256 → Fin 256 → EReal) (r : Fin 256) (j : Fin 256) :
    w12 W1 W2 r ⟨256 + j.val, by omega⟩ = W2 j r := by
  unfold w12
  refine (dif_neg (show ¬ (⟨256 + j.val, by omega⟩ : Fin 512).val < 256 from by simp)).trans ?_
  exact congrArg (fun c => W2 c r) (Fin.ext (by simp))

/-- Entry `j < 256` of the joined bias row is the first layer's. -/
theorem bias12_lo (b1 b2 : Fin 256 → EReal) (j : Fin 256) :
    bias12 b1 b2 ⟨j.val, by omega⟩ = b1 j := by
  unfold bias12
  exact dif_pos (show (⟨j.val, by omega⟩ : Fin 512).val < 256 from j.isLt)

/-- Entry `256 + j` of the joined bias row is the second layer's. -/
theorem bias12_hi (b1 b2 : Fin 256 → EReal) (j : Fin 256) :
    bias12 b1 b2 ⟨256 + j.val, by omega⟩ = b2 j := by
  unfold bias12
  refine (dif_neg (show ¬ (⟨256 + j.val, by omega⟩ : Fin 512).val < 256 from by simp)).trans ?_
  exact congrArg b2 (Fin.ext (by simp))

/-! ## The first two layers -/

/-- A contraction over the paired row, cut after the agent's 128 features. -/
theorem sum_agents (x : Fin 3 → Fin 128 → EReal) (W : Fin 256 → Fin 256 → EReal) (n : Fin 2) (j : Fin 256) :
    (∑ d : Fin 256, agents x n d * W j d)
      = (∑ d : Fin 128, x 0 d * W j ⟨d.val, by omega⟩)
        + ∑ d : Fin 128, x ⟨n.val + 1, by omega⟩ d * W j ⟨128 + d.val, by omega⟩ := by
  refine (sum256 (fun d => agents x n d * W j d)).trans ?_
  refine congr (congrArg HAdd.hAdd ?_) ?_
  · exact Finset.sum_congr rfl fun d _ => congrArg (· * W j ⟨d.val, by omega⟩) (agents_lo x n d)
  · exact Finset.sum_congr rfl fun d _ => congrArg (· * W j ⟨128 + d.val, by omega⟩) (agents_hi x n d)

/-- Column `j` of the kernel's pre-activation row is the first layer's pre-activation. -/
theorem preK_lo (x : Fin 3 → Fin 128 → EReal)
    (W1 : Fin 256 → Fin 256 → EReal) (b1 : Fin 256 → EReal) (W2 : Fin 256 → Fin 256 → EReal) (b2 : Fin 256 → EReal)
    (n : Fin 2) (j : Fin 256) :
    preK x (fun d c => w12 W1 W2 ⟨d.val, by omega⟩ c) (fun d c => w12 W1 W2 ⟨128 + d.val, by omega⟩ c) (bias12 b1 b2)
        n ⟨j.val, by omega⟩
      = (∑ d : Fin 256, agents x n d * W1 j d) + b1 j := by
  unfold preK
  rw [sum_agents x W1 n j, bias12_lo b1 b2 j]
  simp only [w12_lo W1 W2 _ j]

/-- Column `256 + j` of the kernel's pre-activation row is the second layer's pre-activation. -/
theorem preK_hi (x : Fin 3 → Fin 128 → EReal)
    (W1 : Fin 256 → Fin 256 → EReal) (b1 : Fin 256 → EReal) (W2 : Fin 256 → Fin 256 → EReal) (b2 : Fin 256 → EReal)
    (n : Fin 2) (j : Fin 256) :
    preK x (fun d c => w12 W1 W2 ⟨d.val, by omega⟩ c) (fun d c => w12 W1 W2 ⟨128 + d.val, by omega⟩ c) (bias12 b1 b2)
        n ⟨256 + j.val, by omega⟩
      = (∑ d : Fin 256, agents x n d * W2 j d) + b2 j := by
  unfold preK
  rw [sum_agents x W2 n j, bias12_hi b1 b2 j]
  simp only [w12_hi W1 W2 _ j]

/-- The kernel's mixed hidden row is the network's with the logistic mix. -/
theorem hidK_eq (x : Fin 3 → Fin 128 → EReal)
    (W1 : Fin 256 → Fin 256 → EReal) (b1 : Fin 256 → EReal) (W2 : Fin 256 → Fin 256 → EReal) (b2 : Fin 256 → EReal)
    (j : Fin 256) :
    hidK x (fun d c => w12 W1 W2 ⟨d.val, by omega⟩ c) (fun d c => w12 W1 W2 ⟨128 + d.val, by omega⟩ c) (bias12 b1 b2) j
      = hid sigmix x W1 b1 W2 b2 j := by
  unfold hidK hid lin
  refine congr (congrArg sigmix ?_) ?_
  · exact funext fun n => congrArg (max · 0) (preK_hi x W1 b1 W2 b2 n j)
  · exact funext fun n => congrArg (max · 0) (preK_lo x W1 b1 W2 b2 n j)

/-! ## The third layer -/

/-- The kernel's third layer is the network's: the contraction over 640 inputs cut after the 256 hidden values. -/
theorem featK_eq (H : Fin 256 → EReal) (x : Fin 3 → Fin 128 → EReal) (W3 : Fin 256 → Fin 640 → EReal)
    (b3 : Fin 256 → EReal) (k : Fin 256) :
    featK H x (fun j k => W3 k ⟨j.val, by omega⟩) (fun j k => W3 k ⟨256 + j.val, by omega⟩) b3 k
      = feat H x W3 b3 k := by
  unfold featK feat
  refine congrArg (fun s => max (s + b3 k) 0) ?_
  refine Eq.symm ((sum640 (fun j => cat H x j * W3 k j)).trans ?_)
  refine congr (congrArg HAdd.hAdd ?_) ?_
  · exact Finset.sum_congr rfl fun j _ => congrArg (· * W3 k ⟨j.val, by omega⟩) (cat_lo H x j)
  · exact Finset.sum_congr rfl fun j _ => congrArg (· * W3 k ⟨256 + j.val, by omega⟩) (cat_hi H x j)

/-! ## The result -/

/-- The kernel's layout of the weights computes the same network: every contraction is only cut in two (after 128 of
    256 input features; after 256 of 640), and a finite sum over `Fin (m + n)` is the sum over the first `m` plus the
    sum over the last `n` on the extended reals as on any commutative additive monoid. -/
theorem outK_eq_net (x : Fin 3 → Fin 128 → EReal)
    (W1 : Fin 256 → Fin 256 → EReal) (b1 : Fin 256 → EReal) (W2 : Fin 256 → Fin 256 → EReal) (b2 : Fin 256 → EReal)
    (W3 : Fin 256 → Fin 640 → EReal) (b3 : Fin 256 → EReal) (W4 : Fin 8 → Fin 256 → EReal) (b4 : Fin 8 → EReal) (o : Fin 8) :
    outK x (fun d c => w12 W1 W2 ⟨d.val, by omega⟩ c) (fun d c => w12 W1 W2 ⟨128 + d.val, by omega⟩ c) (bias12 b1 b2)
        (fun j k => W3 k ⟨j.val, by omega⟩) (fun j k => W3 k ⟨256 + j.val, by omega⟩) b3 (fun k o => W4 o k) b4 o
      = net sigmix x W1 b1 W2 b2 W3 b3 W4 b4 o := by
  unfold outK net out
  have hH : hidK x (fun d c => w12 W1 W2 ⟨d.val, by omega⟩ c) (fun d c => w12 W1 W2 ⟨128 + d.val, by omega⟩ c) (bias12 b1 b2)
      = hid sigmix x W1 b1 W2 b2 := funext fun j => hidK_eq x W1 b1 W2 b2 j
  rw [hH]
  refine congrArg (fun s => Ideal.tanh (s + b4 o)) ?_
  exact Finset.sum_congr rfl fun k _ => congrArg (· * W4 o k) (featK_eq (hid sigmix x W1 b1 W2 b2) x W3 b3 k)

end Cert.Net

end
-- ==== Proof.KernelValue.lean ====
/-
  The kernel's result array after its run, at the extended reals: grid point `t` writes back rows
  `2048 t … 2048 t + 2047` of the result, each row the network's value (`Net.result Net.sigmix`) for that sample, and
  the 32 points' blocks cover the 65536 rows.
-/
import proofs.«428342_j73306501808520_3_alg».proof.Proof.Gen.KernelIdeal.Value
import proofs.«428342_j73306501808520_3_alg».proof.Proof.KernelBody
import proofs.«428342_j73306501808520_3_alg».proof.Proof.KernelWindowsA
import proofs.«428342_j73306501808520_3_alg».proof.Proof.KernelWindowsB
import proofs.«428342_j73306501808520_3_alg».proof.Proof.NetLayout
import proofs.«428342_j73306501808520_3_alg».proof.Proof.Net
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The grid's index maps -/

/-- The zero offsets of a whole-buffer access, however they are spelt. -/
theorem hz : (![0, 0] : Fin 2 → Nat) = fun _ => 0 := funext fun a => by fin_cases a <;> rfl

/-- The printed index maps, decided over the 32 grid points: the sample window and the result window sit at block
    (t, 0), every parameter window at block (0, 0). -/
theorem idx_facts : ∀ t : Fin cfg0.N, t.val < 32
    ∧ win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The arrays and the blocks, each at its literal type -/

/-- The nine argument arrays as launched, on core `c`. -/
abbrev A0 (c : Dev nD) : S65536x3x128.Idx → EReal := m ((c : Thread nD τ).loc main_arg0)
abbrev A1 (c : Dev nD) : S256x256.Idx → EReal := m ((c : Thread nD τ).loc main_arg1)
abbrev A2 (c : Dev nD) : S256.Idx → EReal := m ((c : Thread nD τ).loc main_arg2)
abbrev A3 (c : Dev nD) : S256x256.Idx → EReal := m ((c : Thread nD τ).loc main_arg3)
abbrev A4 (c : Dev nD) : S256.Idx → EReal := m ((c : Thread nD τ).loc main_arg4)
abbrev A5 (c : Dev nD) : S256x640.Idx → EReal := m ((c : Thread nD τ).loc main_arg5)
abbrev A6 (c : Dev nD) : S256.Idx → EReal := m ((c : Thread nD τ).loc main_arg6)
abbrev A7 (c : Dev nD) : S8x256.Idx → EReal := m ((c : Thread nD τ).loc main_arg7)
abbrev A8 (c : Dev nD) : S8.Idx → EReal := m ((c : Thread nD τ).loc main_arg8)

/-- The nine input windows' blocks at grid point `t`, each at its literal type. -/
abbrev blk0 (c : Dev nD) (t : Fin cfg0.N) : Vec Ideal S2048x384 .f32 := iblk m c 0 t
abbrev blk1 (c : Dev nD) (t : Fin cfg0.N) : Vec Ideal S128x512 .bf16 := iblk m c 1 t
abbrev blk2 (c : Dev nD) (t : Fin cfg0.N) : Vec Ideal S128x512 .bf16 := iblk m c 2 t
abbrev blk3 (c : Dev nD) (t : Fin cfg0.N) : Vec Ideal S1x512 .f32 := iblk m c 3 t
abbrev blk4 (c : Dev nD) (t : Fin cfg0.N) : Vec Ideal S256x256 .bf16 := iblk m c 4 t
abbrev blk5 (c : Dev nD) (t : Fin cfg0.N) : Vec Ideal S384x256 .bf16 := iblk m c 5 t
abbrev blk6 (c : Dev nD) (t : Fin cfg0.N) : Vec Ideal S1x256 .f32 := iblk m c 6 t
abbrev blk7 (c : Dev nD) (t : Fin cfg0.N) : Vec Ideal S256x8 .bf16 := iblk m c 7 t
abbrev blk8 (c : Dev nD) (t : Fin cfg0.N) : Vec Ideal S1x8 .f32 := iblk m c 8 t

/-! ## Each input block read as entries of the array the region finds -/

/-- Row `p` of the sample window's block at point `t` is row `2048 t + p` of the samples. -/
theorem blk0_apply (c : Dev nD) (t : Fin cfg0.N) (p : Fin 2048) (j : Fin 384) (r : Fin 65536)
    (hr : r.val = 2048 * t.val + p.val) :
    blk0 m c t (ix2 p j) = (V m c main_v0 : S65536x384.Idx → EReal) (ix2 r j) := by
  obtain ⟨-, e0, e1, -⟩ := idx_facts t
  show V m c main_v0 (((cfg0.win 0).blk t).view.emb (ix2 p j)) = V m c main_v0 (ix2 r j)
  refine congrArg (V m c main_v0) ?_
  funext ax; apply Fin.ext
  match ax with
  | ⟨0, _⟩ => show win0_0.index t (0 : Fin 2) * 2048 + 1 * p.val = r.val; omega
  | ⟨1, _⟩ => show win0_0.index t (1 : Fin 2) * 384 + 1 * j.val = j.val; omega

/-- Window 1's block is its whole array at every point: its block index is (0, 0). -/
theorem blk1_apply (c : Dev nD) (t : Fin cfg0.N) (a : Fin 128) (b : Fin 512) :
    blk1 m c t (ix2 a b) = (V m c main_v5 : S128x512.Idx → EReal) (ix2 a b) := by
  obtain ⟨-, -, -, -, -, e0, e1, -⟩ := idx_facts t
  show V m c main_v5 (((cfg0.win 1).blk t).view.emb (ix2 a b)) = V m c main_v5 (ix2 a b)
  refine congrArg (V m c main_v5) ?_
  funext ax; apply Fin.ext
  match ax with
  | ⟨0, _⟩ => show win0_1.index t (0 : Fin 2) * 128 + 1 * a.val = a.val; omega
  | ⟨1, _⟩ => show win0_1.index t (1 : Fin 2) * 512 + 1 * b.val = b.val; omega

/-- Window 2's block is its whole array at every point: its block index is (0, 0). -/
theorem blk2_apply (c : Dev nD) (t : Fin cfg0.N) (a : Fin 128) (b : Fin 512) :
    blk2 m c t (ix2 a b) = (V m c main_v6 : S128x512.Idx → EReal) (ix2 a b) := by
  obtain ⟨-, -, -, -, -, -, -, e0, e1, -⟩ := idx_facts t
  show V m c main_v6 (((cfg0.win 2).blk t).view.emb (ix2 a b)) = V m c main_v6 (ix2 a b)
  refine congrArg (V m c main_v6) ?_
  funext ax; apply Fin.ext
  match ax with
  | ⟨0, _⟩ => show win0_2.index t (0 : Fin 2) * 128 + 1 * a.val = a.val; omega
  | ⟨1, _⟩ => show win0_2.index t (1 : Fin 2) * 512 + 1 * b.val = b.val; omega

/-- Window 3's block is its whole array at every point: its block index is (0, 0). -/
theorem blk3_apply (c : Dev nD) (t : Fin cfg0.N) (a : Fin 1) (b : Fin 512) :
    blk3 m c t (ix2 a b) = (V m c main_v8 : S1x512.Idx → EReal) (ix2 a b) := by
  obtain ⟨-, -, -, -, -, -, -, -, -, e0, e1, -⟩ := idx_facts t
  show V m c main_v8 (((cfg0.win 3).blk t).view.emb (ix2 a b)) = V m c main_v8 (ix2 a b)
  refine congrArg (V m c main_v8) ?_
  funext ax; apply Fin.ext
  match ax with
  | ⟨0, _⟩ => show win0_3.index t (0 : Fin 2) * 1 + 1 * a.val = a.val; omega
  | ⟨1, _⟩ => show win0_3.index t (1 : Fin 2) * 512 + 1 * b.val = b.val; omega

/-- Window 4's block is its whole array at every point: its block index is (0, 0). -/
theorem blk4_apply (c : Dev nD) (t : Fin cfg0.N) (a : Fin 256) (b : Fin 256) :
    blk4 m c t (ix2 a b) = (V m c main_v11 : S256x256.Idx → EReal) (ix2 a b) := by
  obtain ⟨-, -, -, -, -, -, -, -, -, -, -, e0, e1, -⟩ := idx_facts t
  show V m c main_v11 (((cfg0.win 4).blk t).view.emb (ix2 a b)) = V m c main_v11 (ix2 a b)
  refine congrArg (V m c main_v11) ?_
  funext ax; apply Fin.ext
  match ax with
  | ⟨0, _⟩ => show win0_4.index t (0 : Fin 2) * 256 + 1 * a.val = a.val; omega
  | ⟨1, _⟩ => show win0_4.index t (1 : Fin 2) * 256 + 1 * b.val = b.val; omega

/-- Window 5's block is its whole array at every point: its block index is (0, 0). -/
theorem blk5_apply (c : Dev nD) (t : Fin cfg0.N) (a : Fin 384) (b : Fin 256) :
    blk5 m c t (ix2 a b) = (V m c main_v12 : S384x256.Idx → EReal) (ix2 a b) := by
  obtain ⟨-, -, -, -, -, -, -, -, -, -, -, -, -, e0, e1, -⟩ := idx_facts t
  show V m c main_v12 (((cfg0.win 5).blk t).view.emb (ix2 a b)) = V m c main_v12 (ix2 a b)
  refine congrArg (V m c main_v12) ?_
  funext ax; apply Fin.ext
  match ax with
  | ⟨0, _⟩ => show win0_5.index t (0 : Fin 2) * 384 + 1 * a.val = a.val; omega
  | ⟨1, _⟩ => show win0_5.index t (1 : Fin 2) * 256 + 1 * b.val = b.val; omega

/-- Window 6's block is its whole array at every point: its block index is (0, 0). -/
theorem blk6_apply (c : Dev nD) (t : Fin cfg0.N) (a : Fin 1) (b : Fin 256) :
    blk6 m c t (ix2 a b) = (V m c main_v15 : S1x256.Idx → EReal) (ix2 a b) := by
  obtain ⟨-, -, -, -, -, -, -, -, -, -, -, -, -, -, -, e0, e1, -⟩ := idx_facts t
  show V m c main_v15 (((cfg0.win 6).blk t).view.emb (ix2 a b)) = V m c main_v15 (ix2 a b)
  refine congrArg (V m c main_v15) ?_
  funext ax; apply Fin.ext
  match ax with
  | ⟨0, _⟩ => show win0_6.index t (0 : Fin 2) * 1 + 1 * a.val = a.val; omega
  | ⟨1, _⟩ => show win0_6.index t (1 : Fin 2) * 256 + 1 * b.val = b.val; omega

/-- Window 7's block is its whole array at every point: its block index is (0, 0). -/
theorem blk7_apply (c : Dev nD) (t : Fin cfg0.N) (a : Fin 256) (b : Fin 8) :
    blk7 m c t (ix2 a b) = (V m c main_v14 : S256x8.Idx → EReal) (ix2 a b) := by
  obtain ⟨-, -, -, -, -, -, -, -, -, -, -, -, -, -, -, -, -, e0, e1, -⟩ := idx_facts t
  show V m c main_v14 (((cfg0.win 7).blk t).view.emb (ix2 a b)) = V m c main_v14 (ix2 a b)
  refine congrArg (V m c main_v14) ?_
  funext ax; apply Fin.ext
  match ax with
  | ⟨0, _⟩ => show win0_7.index t (0 : Fin 2) * 256 + 1 * a.val = a.val; omega
  | ⟨1, _⟩ => show win0_7.index t (1 : Fin 2) * 8 + 1 * b.val = b.val; omega

/-- Window 8's block is its whole array at every point: its block index is (0, 0). -/
theorem blk8_apply (c : Dev nD) (t : Fin cfg0.N) (a : Fin 1) (b : Fin 8) :
    blk8 m c t (ix2 a b) = (V m c main_v16 : S1x8.Idx → EReal) (ix2 a b) := by
  obtain ⟨-, -, -, -, -, -, -, -, -, -, -, -, -, -, -, -, -, -, -, e0, e1⟩ := idx_facts t
  show V m c main_v16 (((cfg0.win 8).blk t).view.emb (ix2 a b)) = V m c main_v16 (ix2 a b)
  refine congrArg (V m c main_v16) ?_
  funext ax; apply Fin.ext
  match ax with
  | ⟨0, _⟩ => show win0_8.index t (0 : Fin 2) * 1 + 1 * a.val = a.val; omega
  | ⟨1, _⟩ => show win0_8.index t (1 : Fin 2) * 8 + 1 * b.val = b.val; omega

/-- Feature `d` of row `a` of the sample in row `p` of the block at point `t` is that of sample `2048 t + p`:
    column `128 a + d` of the 384-feature row, and `(128 a + d) / 128 = a`, `(128 a + d) % 128 = d`. -/
theorem sample_blk0 (c : Dev nD) (t : Fin cfg0.N) (p : Fin 2048) (r : Fin 65536) (hr : r.val = 2048 * t.val + p.val)
    (a : Fin 3) (d : Fin 128) : Body.sample (blk0 m c t) p a d = A0 m c (ix3 r a d) := by
  have key : ∀ j : Fin 384, j.val = 128 * a.val + d.val → blk0 m c t (ix2 p j) = A0 m c (ix3 r a d) := by
    intro j hj
    refine (blk0_apply m c t p j r hr).trans ?_
    refine (Windows.V_v0 m c r j).trans ?_
    have e1 : (⟨j.val / 128, by omega⟩ : Fin 3) = a := Fin.ext (by show j.val / 128 = a.val; omega)
    have e2 : (⟨j.val % 128, Nat.mod_lt _ (by norm_num)⟩ : Fin 128) = d := Fin.ext (by show j.val % 128 = d.val; omega)
    rw [e1, e2]
  exact key _ rfl

/-- Row `p`, column `o` of the result window's block at point `t` is entry `(2048 t + p, o)` of the result array. -/
theorem emb9 (t : Fin cfg0.N) (p : Fin 2048) (o : Fin 8) (r : Fin 65536) (hr : r.val = 2048 * t.val + p.val) :
    ((cfg0.win 9).blk t).view.emb (ix2 p o) = (ix2 r o : S65536x8.Idx) := by
  obtain ⟨-, -, -, e0, e1, -⟩ := idx_facts t
  funext ax; apply Fin.ext
  match ax with
  | ⟨0, _⟩ => show win0_9.index t (0 : Fin 2) * 2048 + 1 * p.val = r.val; omega
  | ⟨1, _⟩ => show win0_9.index t (1 : Fin 2) * 8 + 1 * o.val = o.val; omega

/-! ## The result array's cover by the 32 blocks -/

/-- An index of the result array is in point `t`'s block iff each coordinate is in the block's range on its axis. -/
theorem mem_blk (t : Fin cfg0.N) (i : S65536x8.Idx) :
    i ∈ ((cfg0.win 9).blk t).view.set ↔ ∀ a : Fin 2, win0_9.index t a * S2048x8.size a ≤ (i a).val ∧ (i a).val < win0_9.index t a * S2048x8.size a + S2048x8.size a := by
  show i ∈ ((View.whole main_v17).slice (win0_9.rect t)).set ↔ _
  rw [View.set_slice_whole, Rect.mem_set_unit]
  exact Iff.rfl

/-- Every entry of the result array is in some point's block: row `r` in that of point `r / 2048`. -/
theorem cover (i : S65536x8.Idx) : ∃ t : Fin cfg0.N, (cfg0.win 9).flush t = true ∧ i ∈ ((cfg0.win 9).blk t).view.set := by
  have hi0 : (i 0).val < 65536 := (i 0).isLt
  have hi1 : (i 1).val < 8 := (i 1).isLt
  obtain ⟨t, ht⟩ : ∃ t : Fin cfg0.N, t.val = (i 0).val / 2048 :=
    ⟨⟨(i 0).val / 2048, (by omega : (i 0).val / 2048 < 32).trans_eq N_0.symm⟩, rfl⟩
  obtain ⟨-, -, -, e0, e1, -⟩ := idx_facts t
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 8 ≤ (i 1).val ∧ (i 1).val < win0_9.index t (1 : Fin 2) * 8 + 8; omega

/-! ## The result array -/

/-- The result array as one function of the nine argument arrays. -/
def G (c : Dev nD) : S65536x8.Idx → EReal :=
  Net.result Net.sigmix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Entry `(r, o)` of `G`: the network on sample `r`, its parameters read off the argument arrays. -/
theorem G_apply (c : Dev nD) (r : Fin 65536) (o : Fin 8) :
    G m c (ix2 r o) = Net.net Net.sigmix (fun a d => A0 m c (ix3 r a d))
      (fun j d => A1 m c (ix2 j d)) (fun j => A2 m c (ix1 j)) (fun j d => A3 m c (ix2 j d)) (fun j => A4 m c (ix1 j))
      (fun k j => A5 m c (ix2 k j)) (fun k => A6 m c (ix1 k)) (fun o' k => A7 m c (ix2 o' k)) (fun o' => A8 m c (ix1 o')) o := rfl

/-- What point `t` stores at row `p`, column `o` of its block is entry `(2048 t + p, o)` of `G`. -/
theorem entry (c : Dev nD) (t : Fin cfg0.N) (p : Fin 2048) (o : Fin 8) (r : Fin 65536) (hr : r.val = 2048 * t.val + p.val) :
    k0_pay1 (F := Ideal) (k0_pay2 (blk0 m c t)) (k0_pay8 (blk0 m c t) (blk1 m c t) (blk2 m c t) (blk3 m c t)) (k0_pay9 (blk0 m c t) (blk1 m c t) (blk2 m c t) (blk3 m c t)) (k0_pay10 (blk0 m c t) (blk1 m c t) (blk2 m c t) (blk3 m c t)) (blk4 m c t) (blk5 m c t) (blk6 m c t) (blk7 m c t) (blk8 m c t) (ix2 p o) = G m c (ix2 r o) := by
  refine (Body.pay_apply (blk0 m c t) (blk1 m c t) (blk2 m c t) (blk3 m c t) (blk4 m c t) (blk5 m c t) (blk6 m c t) (blk7 m c t) (blk8 m c t) p o).trans ?_
  refine Eq.trans ?_ ((Net.outK_eq_net (fun a d => A0 m c (ix3 r a d))
      (fun j d => A1 m c (ix2 j d)) (fun j => A2 m c (ix1 j)) (fun j d => A3 m c (ix2 j d)) (fun j => A4 m c (ix1 j))
      (fun k j => A5 m c (ix2 k j)) (fun k => A6 m c (ix1 k)) (fun o' k => A7 m c (ix2 o' k)) (fun o' => A8 m c (ix1 o')) o).trans (G_apply m c r o).symm)
  have h0 : Body.sample (blk0 m c t) p = fun a d => A0 m c (ix3 r a d) :=
    funext fun a => funext fun d => sample_blk0 m c t p r hr a d
  have h1 : (fun d col => blk1 m c t (ix2 d col)) = fun (d : Fin 128) (col : Fin 512) =>
      Net.w12 (fun j d' => A1 m c (ix2 j d')) (fun j d' => A3 m c (ix2 j d')) (⟨d.val, by omega⟩ : Fin 256) col :=
    funext fun d => funext fun col => (blk1_apply m c t d col).trans (Windows.V_v5 m c d col)
  have h2 : (fun d col => blk2 m c t (ix2 d col)) = fun (d : Fin 128) (col : Fin 512) =>
      Net.w12 (fun j d' => A1 m c (ix2 j d')) (fun j d' => A3 m c (ix2 j d')) (⟨128 + d.val, by omega⟩ : Fin 256) col :=
    funext fun d => funext fun col => (blk2_apply m c t d col).trans (Windows.V_v6 m c d col)
  have h3 : (fun col => blk3 m c t (ix2 (0 : Fin 1) col)) = Net.bias12 (fun j => A2 m c (ix1 j)) (fun j => A4 m c (ix1 j)) :=
    funext fun col => (blk3_apply m c t 0 col).trans (Windows.V_v8 m c col)
  have h4 : (fun j k => blk4 m c t (ix2 j k)) = fun (j k : Fin 256) => A5 m c (ix2 k (⟨j.val, by omega⟩ : Fin 640)) :=
    funext fun j => funext fun k => (blk4_apply m c t j k).trans (Windows.V_v11 m c j k)
  have h5 : (fun j k => blk5 m c t (ix2 j k)) = fun (j : Fin 384) (k : Fin 256) => A5 m c (ix2 k (⟨256 + j.val, by omega⟩ : Fin 640)) :=
    funext fun j => funext fun k => (blk5_apply m c t j k).trans (Windows.V_v12 m c j k)
  have h6 : (fun k => blk6 m c t (ix2 (0 : Fin 1) k)) = fun (k : Fin 256) => A6 m c (ix1 k) :=
    funext fun k => (blk6_apply m c t 0 k).trans (Windows.V_v15 m c k)
  have h7 : (fun k o' => blk7 m c t (ix2 k o')) = fun (k : Fin 256) (o' : Fin 8) => A7 m c (ix2 o' k) :=
    funext fun k => funext fun o' => (blk7_apply m c t k o').trans (Windows.V_v14 m c k o')
  have h8 : (fun o' => blk8 m c t (ix2 (0 : Fin 1) o')) = fun (o' : Fin 8) => A8 m c (ix1 o') :=
    funext fun o' => (blk8_apply m c t 0 o').trans (Windows.V_v16 m c o')
  rw [h0, h1, h2, h3, h4, h5, h6, h7, h8]

/-- WHAT POINT `t` WRITES BACK is block `t` of `G`. -/
theorem flushed_eq (c : Dev nD) (t : Fin cfg0.N) :
    (dats m 0 c).flushed 9 t = ((cfg0.win 9).blk t).view.read (Elt Ideal) (G m c) := by
  rw [Value.flushed9]
  unfold Gen.out0_9
  rw [View.canon_unit_zero hz]
  simp only [View.ld_unit_zero (S := S2048x384) hz, View.ld_unit_zero (S := S128x512) hz, View.ld_unit_zero (S := S1x512) hz,
    View.ld_unit_zero (S := S256x256) hz, View.ld_unit_zero (S := S384x256) hz, View.ld_unit_zero (S := S1x256) hz,
    View.ld_unit_zero (S := S256x8) hz, View.ld_unit_zero (S := S1x8) hz]
  have ht : t.val < 32 := (idx_facts t).1
  funext y
  obtain ⟨p, o, rfl⟩ : ∃ (p : Fin 2048) (o : Fin 8), y = ix2 p o := ⟨y 0, y 1, eq_ix2 y⟩
  show k0_pay1 (F := Ideal) (k0_pay2 (blk0 m c t)) (k0_pay8 (blk0 m c t) (blk1 m c t) (blk2 m c t) (blk3 m c t)) (k0_pay9 (blk0 m c t) (blk1 m c t) (blk2 m c t) (blk3 m c t)) (k0_pay10 (blk0 m c t) (blk1 m c t) (blk2 m c t) (blk3 m c t)) (blk4 m c t) (blk5 m c t) (blk6 m c t) (blk7 m c t) (blk8 m c t) (ix2 p o) = G m c (((cfg0.win 9).blk t).view.emb (ix2 p o))
  rw [emb9 t p o (⟨2048 * t.val + p.val, by omega⟩ : Fin 65536) rfl]
  exact entry m c t p o (⟨2048 * t.val + p.val, by omega⟩ : Fin 65536) rfl

/-- After the run the result array is `G`. -/
theorem final (c : Dev nD) : (dats m 0 c).arrAt 9 cfg0.N = G m c :=
  (dats m 0 c).arrAt_eq_of_cover 9 (G m c) (fun t _ => flushed_eq m c t) cover

/-- The kernel's run with its result array named. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.KValue

end
-- ==== Proof.RefStage1.lean ====
/-
  The reference's first two layers at an index, at the extended reals: each is the rectified linear layer of the
  network (`Net.lin`) on the agent's features followed by the neighbour's.
-/
import proofs.«428342_j73306501808520_3_alg».proof.Proof.RefRead
import proofs.«428342_j73306501808520_3_alg».proof.Proof.Net
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.PureOps.Reduce

noncomputable section

namespace Cert.ReferenceIdeal.RValue

open Cert.ReferenceIdeal Cert.ReferenceIdeal.Gen Cert.ReferenceIdeal.ReadP Idealize.ShloMosaic Idealize.ShloMosaic.TcCoe Idealize.SL.Sem Idealize.ShloMosaic.ValueIdx

/-- The contraction's left operand at sample `b`, neighbour `n`, feature `d`: the concatenation along the feature axis
    reads, below 128, row 0 of the sample (broadcast over the neighbours) at feature `d`, and from 128 on, row `n + 1` at
    feature `d - 128`. -/
theorem v3_apply (x0 : (⟨S65536x3x128, .f32⟩ : BufTy).Contents (Elt Ideal)) (b : Fin 65536) (n : Fin 2) (d : Fin 256) :
    val_main_v3 (F := Ideal) x0 (ix3 b n d) = Net.agents (fun a d => x0 (ix3 b a d)) n d := by
  unfold val_main_v3 Net.agents
  by_cases h : d.val < 128
  · rw [dif_pos h]
    -- the joined-axis coordinate falls in the first piece: same coordinates there
    refine (concatenate_pair_apply_left (s₁ := S65536x2x128) (s₂ := S65536x2x128) _ _ _ _ (ix3 b n d) rfl (ix3 b n (⟨d.val, h⟩ : Fin 128)) ?_).trans ?_
    · intro a
      match a with
      | ⟨0, _⟩ => rfl
      | ⟨1, _⟩ => rfl
      | ⟨2, _⟩ => rfl
    · rw [val_main_v1_apply, val_main_v0_apply]
      exact congrArg x0 (funext fun a => Fin.ext (by
        match a with
        | ⟨0, _⟩ => rfl
        | ⟨1, _⟩ => rfl
        | ⟨2, _⟩ => rfl))
  · rw [dif_neg h]
    -- the joined-axis coordinate falls in the second piece, the first piece's 128 features less
    refine (concatenate_pair_apply_right (s₁ := S65536x2x128) (s₂ := S65536x2x128) _ _ _ _ (ix3 b n d) rfl rfl (ix3 b n (⟨d.val - 128, by omega⟩ : Fin 128)) ?_ ?_).trans ?_
    · intro a ha
      match a, ha with
      | ⟨0, _⟩, _ => rfl
      | ⟨1, _⟩, _ => rfl
      | ⟨2, _⟩, ha => exact absurd (Fin.ext rfl) ha
    · show d.val - 128 + 128 = d.val
      omega
    · rw [val_main_v2_apply]
      exact congrArg x0 (funext fun a => Fin.ext (by
        match a with
        | ⟨0, _⟩ => rfl
        | ⟨1, _⟩ => show 1 + n.val = n.val + 1; omega
        | ⟨2, _⟩ => rfl))

/-- The first layer with its rectifier, for sample `b`, neighbour `n`, at hidden index `j`: the reference's
    contraction runs over the agent's row followed by the neighbour's (a concatenation along the feature axis of a
    broadcast of row 0 and of rows 1–2). -/
theorem v8_apply (x0 : (⟨S65536x3x128, .f32⟩ : BufTy).Contents (Elt Ideal)) (x1 : (⟨S256x256, .f32⟩ : BufTy).Contents (Elt Ideal)) (x2 : (⟨S256, .f32⟩ : BufTy).Contents (Elt Ideal)) (b : Fin 65536) (n : Fin 2) (j : Fin 256) :
    val_main_v8 (F := Ideal) x0 x1 x2 (ix3 b n j)
      = Net.lin (fun a d => x0 (ix3 b a d)) (fun j d => x1 (ix2 j d)) (fun j => x2 (ix1 j)) n j := by
  have e5 : idx_main_v5 (idx_main_v6 (ix3 b n j)) = ix1 j := funext fun a => Fin.ext (by
    match a with
    | ⟨0, _⟩ => rfl)
  have el : ∀ k : Fin 256, lidx_main_v4 (ix3 b n j) k = ix3 b n k := fun k => funext fun a => Fin.ext (by
    match a with
    | ⟨0, _⟩ => rfl
    | ⟨1, _⟩ => rfl
    | ⟨2, _⟩ => rfl)
  have er : ∀ k : Fin 256, ridx_main_v4 (ix3 b n j) k = ix2 j k := fun k => funext fun a => Fin.ext (by
    match a with
    | ⟨0, _⟩ => rfl
    | ⟨1, _⟩ => rfl)
  rw [val_main_v8_apply, val_main_v7_apply, val_main_v4_apply, val_main_v6_apply, val_main_v5_apply,
    val_main_call0_v0_apply, val_main_call0_cst_apply]
  simp only [e5, el, er, v3_apply, Ideal.maximumf_def, Ideal.addf_def, Ideal.ofBits_def, Ideal.ofBits_zero_f32]
  rfl

/-- The second layer (the attention logits) the same way. -/
theorem v13_apply (x0 : (⟨S65536x3x128, .f32⟩ : BufTy).Contents (Elt Ideal)) (x3 : (⟨S256x256, .f32⟩ : BufTy).Contents (Elt Ideal)) (x4 : (⟨S256, .f32⟩ : BufTy).Contents (Elt Ideal)) (b : Fin 65536) (n : Fin 2) (j : Fin 256) :
    val_main_v13 (F := Ideal) x0 x3 x4 (ix3 b n j)
      = Net.lin (fun a d => x0 (ix3 b a d)) (fun j d => x3 (ix2 j d)) (fun j => x4 (ix1 j)) n j := by
  have e5 : idx_main_v10 (idx_main_v11 (ix3 b n j)) = ix1 j := funext fun a => Fin.ext (by
    match a with
    | ⟨0, _⟩ => rfl)
  have el : ∀ k : Fin 256, lidx_main_v9 (ix3 b n j) k = ix3 b n k := fun k => funext fun a => Fin.ext (by
    match a with
    | ⟨0, _⟩ => rfl
    | ⟨1, _⟩ => rfl
    | ⟨2, _⟩ => rfl)
  have er : ∀ k : Fin 256, ridx_main_v9 (ix3 b n j) k = ix2 j k := fun k => funext fun a => Fin.ext (by
    match a with
    | ⟨0, _⟩ => rfl
    | ⟨1, _⟩ => rfl)
  rw [val_main_v13_apply, val_main_v12_apply, val_main_v9_apply, val_main_v11_apply, val_main_v10_apply,
    val_main_call1_v0_apply, val_main_call1_cst_apply]
  simp only [e5, el, er, v3_apply, Ideal.maximumf_def, Ideal.addf_def, Ideal.ofBits_def, Ideal.ofBits_zero_f32]
  rfl

end Cert.ReferenceIdeal.RValue

end
-- ==== Proof.RefStage2.lean ====
/-
  The reference's attention stage at an index, at the extended reals: the softmax-weighted sum of the two neighbours'
  hidden values (`Net.softmix`) of the logits and hidden values the earlier stages give.
-/
import proofs.«428342_j73306501808520_3_alg».proof.Proof.RefRead
import proofs.«428342_j73306501808520_3_alg».proof.Proof.Net
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.PureOps.Reduce

noncomputable section

namespace Cert.ReferenceIdeal.RValue

open Cert.ReferenceIdeal Cert.ReferenceIdeal.Gen Cert.ReferenceIdeal.ReadP Idealize.ShloMosaic Idealize.ShloMosaic.TcCoe Idealize.SL.Sem Idealize.ShloMosaic.ValueIdx

/-! ## Indices by coordinates -/

/-- Sample `b`, hidden index `j`, with neighbour `k` put back on the summed axis. -/
theorem idx_v26_ix (b : Fin 65536) (j : Fin 256) (k : Fin 2) : idx_main_v26 (ix2 b j) k = ix3 b k j :=
  funext fun a => Fin.ext (by match a with | ⟨0, _⟩ => rfl | ⟨1, _⟩ => rfl | ⟨2, _⟩ => rfl)

theorem idx_v21_ix (b : Fin 65536) (j : Fin 256) (k : Fin 2) : idx_main_v21 (ix2 b j) k = ix3 b k j :=
  funext fun a => Fin.ext (by match a with | ⟨0, _⟩ => rfl | ⟨1, _⟩ => rfl | ⟨2, _⟩ => rfl)

/-- A broadcast along the neighbour axis reads the one neighbour-free row. -/
theorem idx_v23_ix (b : Fin 65536) (n : Fin 2) (j : Fin 256) : idx_main_v23 (ix3 b n j) = ix3 b (0 : Fin 1) j :=
  funext fun a => Fin.ext (by match a with | ⟨0, _⟩ => rfl | ⟨1, _⟩ => rfl | ⟨2, _⟩ => rfl)

theorem idx_v18_ix (b : Fin 65536) (n : Fin 2) (j : Fin 256) : idx_main_v18 (ix3 b n j) = ix3 b (0 : Fin 1) j :=
  funext fun a => Fin.ext (by match a with | ⟨0, _⟩ => rfl | ⟨1, _⟩ => rfl | ⟨2, _⟩ => rfl)

/-- The unit axis dropped again. -/
theorem idx_v22_ix (b : Fin 65536) (j : Fin 256) : idx_main_v22 (ix3 b (0 : Fin 1) j) = ix2 b j :=
  funext fun a => Fin.ext (by match a with | ⟨0, _⟩ => rfl | ⟨1, _⟩ => rfl)

theorem idx_v17_ix (b : Fin 65536) (j : Fin 256) : idx_main_v17 (ix3 b (0 : Fin 1) j) = ix2 b j :=
  funext fun a => Fin.ext (by match a with | ⟨0, _⟩ => rfl | ⟨1, _⟩ => rfl)

/-! ## The maximum over the neighbour axis -/

/-- The word of minus infinity is the least extended real. -/
theorem ofBits_neg_inf : Ideal.ofBits .f32 0xFF800000#32 = (⊥ : EReal) := by simp [Ideal.ofBits, Ideal.ieee]

/-- Result index `(b, j)` with neighbour `k` inserted on the reduced axis is `(b, k, j)`. -/
theorem lift_ix (h : S65536x2x256.Reduces [1] S65536x256) (b : Fin 65536) (j : Fin 256) (k : Fin 2) :
    h.lift (ix2 b j) k = ix3 b k j :=
  funext fun a => Fin.ext (by match a with | ⟨0, _⟩ => rfl | ⟨1, _⟩ => rfl | ⟨2, _⟩ => rfl)

/-- From minus infinity, the maximum over the neighbour axis at `(b, j)` is the larger of the two entries `(b, 0, j)`, `(b, 1, j)`. -/
theorem reduce_max_pair (y : FVec Ideal S65536x2x256 .f32) (b : Fin 65536) (j : Fin 256) :
    Host.reduce FloatOps.maximumf y (constant (F := Ideal) S_ .f32 0xFF800000#32) reducesTo_S65536x2x256_S65536x256_d1 h_S_ (ix2 b j)
      = max (y (ix3 b 0 j)) (y (ix3 b 1 j)) := by
  have h : S65536x2x256.Reduces [1] S65536x256 := by decide
  rw [Host.reduce_eq_fold_single FloatOps.maximumf y _ reducesTo_S65536x2x256_S65536x256_d1 h h_S_]
  refine (Finset.fold_congr (g := fun k : Fin 2 => y (ix3 b k j)) fun k _ => congrArg y (lift_ix h b j k)).trans ?_
  show (Finset.univ : Finset (Fin 2)).fold max (Ideal.ofBits .f32 0xFF800000#32) (fun k : Fin 2 => y (ix3 b k j)) = _
  rw [ofBits_neg_inf, Finset.univ_fin2, Finset.fold_insert (by decide), Finset.fold_singleton, max_bot_right]

/-- The maximum over the neighbour axis started from minus infinity is the larger of the two logits. -/
theorem v14_apply (x0 : (⟨S65536x3x128, .f32⟩ : BufTy).Contents (Elt Ideal)) (x3 : (⟨S256x256, .f32⟩ : BufTy).Contents (Elt Ideal)) (x4 : (⟨S256, .f32⟩ : BufTy).Contents (Elt Ideal)) (b : Fin 65536) (j : Fin 256) :
    val_main_v14 (F := Ideal) x0 x3 x4 (ix2 b j)
      = max (val_main_v13 (F := Ideal) x0 x3 x4 (ix3 b 0 j)) (val_main_v13 (F := Ideal) x0 x3 x4 (ix3 b 1 j)) := by
  unfold val_main_v14
  exact reduce_max_pair _ b j

/-! ## The stages at an index -/

/-- The shift of every logit of sample `b` at hidden index `j`: the larger of the two logits (joined once more with
    minus infinity, which changes nothing), the same for both neighbours. -/
theorem v18_apply (x0 : (⟨S65536x3x128, .f32⟩ : BufTy).Contents (Elt Ideal)) (x3 : (⟨S256x256, .f32⟩ : BufTy).Contents (Elt Ideal)) (x4 : (⟨S256, .f32⟩ : BufTy).Contents (Elt Ideal)) (b : Fin 65536) (n : Fin 2) (j : Fin 256) :
    val_main_v18 (F := Ideal) x0 x3 x4 (ix3 b n j) = max (val_main_v13 (F := Ideal) x0 x3 x4 (ix3 b 0 j)) (val_main_v13 (F := Ideal) x0 x3 x4 (ix3 b 1 j)) := by
  rw [val_main_v18_apply, idx_v18_ix, val_main_v17_apply, idx_v17_ix, val_main_v16_apply, val_main_v15_apply,
    val_main_cst_0_apply, v14_apply, Ideal.maximumf_def, Ideal.ofBits_def, ofBits_neg_inf, max_bot_left]

/-- The shifted exponential of neighbour `n`'s logit. -/
theorem v20_apply (x0 : (⟨S65536x3x128, .f32⟩ : BufTy).Contents (Elt Ideal)) (x3 : (⟨S256x256, .f32⟩ : BufTy).Contents (Elt Ideal)) (x4 : (⟨S256, .f32⟩ : BufTy).Contents (Elt Ideal)) (b : Fin 65536) (n : Fin 2) (j : Fin 256) :
    val_main_v20 (F := Ideal) x0 x3 x4 (ix3 b n j) = Ideal.exp (val_main_v13 (F := Ideal) x0 x3 x4 (ix3 b n j) - max (val_main_v13 (F := Ideal) x0 x3 x4 (ix3 b 0 j)) (val_main_v13 (F := Ideal) x0 x3 x4 (ix3 b 1 j))) := by
  rw [val_main_v20_apply, val_main_v19_apply, v18_apply, Ideal.hostUnary_exp_def, Ideal.subf_def]

/-- The softmax's denominator: the two shifted exponentials summed from zero, the same for both neighbours. -/
theorem v23_apply (x0 : (⟨S65536x3x128, .f32⟩ : BufTy).Contents (Elt Ideal)) (x3 : (⟨S256x256, .f32⟩ : BufTy).Contents (Elt Ideal)) (x4 : (⟨S256, .f32⟩ : BufTy).Contents (Elt Ideal)) (b : Fin 65536) (n : Fin 2) (j : Fin 256) :
    val_main_v23 (F := Ideal) x0 x3 x4 (ix3 b n j) = (0 + ∑ n' : Fin 2, Ideal.exp (val_main_v13 (F := Ideal) x0 x3 x4 (ix3 b n' j) - max (val_main_v13 (F := Ideal) x0 x3 x4 (ix3 b 0 j)) (val_main_v13 (F := Ideal) x0 x3 x4 (ix3 b 1 j)))) := by
  rw [val_main_v23_apply, idx_v23_ix, val_main_v22_apply, idx_v22_ix, val_main_v21_apply, val_main_cst_1_apply,
    Ideal.ofBits_def, Ideal.ofBits_zero_f32]
  refine congrArg (0 + ·) (Finset.sum_congr rfl fun n' _ => ?_)
  rw [idx_v21_ix, v20_apply]

/-- Neighbour `n`'s softmax weight times its hidden value. -/
theorem v25_apply (x0 : (⟨S65536x3x128, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (b : Fin 65536) (n : Fin 2) (j : Fin 256) :
    val_main_v25 (F := Ideal) x0 x1 x2 x3 x4 (ix3 b n j)
      = Ideal.div (Ideal.exp (val_main_v13 (F := Ideal) x0 x3 x4 (ix3 b n j) - max (val_main_v13 (F := Ideal) x0 x3 x4 (ix3 b 0 j)) (val_main_v13 (F := Ideal) x0 x3 x4 (ix3 b 1 j)))) (0 + ∑ n' : Fin 2, Ideal.exp (val_main_v13 (F := Ideal) x0 x3 x4 (ix3 b n' j) - max (val_main_v13 (F := Ideal) x0 x3 x4 (ix3 b 0 j)) (val_main_v13 (F := Ideal) x0 x3 x4 (ix3 b 1 j)))) * val_main_v8 (F := Ideal) x0 x1 x2 (ix3 b n j) := by
  rw [val_main_v25_apply, val_main_v24_apply, v20_apply, v23_apply, Ideal.mulf_def, Ideal.hostDivf_def]

/-- The mixed hidden row for sample `b` at hidden index `j`: the softmax over the two neighbours of the logits (the
    maximum over the neighbour axis started from minus infinity, joined once more with minus infinity, subtracted;
    exponentials; their sum from zero; the quotient), times the hidden values, summed from zero over the neighbours. -/
theorem v26_apply (x0 : (⟨S65536x3x128, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (b : Fin 65536) (j : Fin 256) :
    val_main_v26 (F := Ideal) x0 x1 x2 x3 x4 (ix2 b j)
      = Net.softmix (fun n => val_main_v13 (F := Ideal) x0 x3 x4 (ix3 b n j)) (fun n => val_main_v8 (F := Ideal) x0 x1 x2 (ix3 b n j)) := by
  rw [val_main_v26_apply, val_main_cst_2_apply, Ideal.ofBits_def, Ideal.ofBits_zero_f32]
  unfold Net.softmix
  refine congrArg (0 + ·) (Finset.sum_congr rfl fun n _ => ?_)
  rw [idx_v26_ix, v25_apply]

end Cert.ReferenceIdeal.RValue

end
-- ==== Proof.RefStage3.lean ====
/-
  The reference's last two layers at an index, at the extended reals, over the mixed hidden row the attention stage
  gives (`Net.out`).
-/
import proofs.«428342_j73306501808520_3_alg».proof.Proof.RefRead
import proofs.«428342_j73306501808520_3_alg».proof.Proof.Net
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.PureOps.Reduce

noncomputable section

namespace Cert.ReferenceIdeal.RValue

open Cert.ReferenceIdeal Cert.ReferenceIdeal.Gen Cert.ReferenceIdeal.ReadP Idealize.ShloMosaic Idealize.ShloMosaic.TcCoe Idealize.SL.Sem Idealize.ShloMosaic.ValueIdx

/-- The concatenation along the feature axis at row `b`, column `j`: below 256 the mixed hidden row's entry `j`; from
    256 on, column `j - 256` of the sample reshaped to one row of 384, which is feature `(j - 256) % 128` of the
    sample's row `(j - 256) / 128`. -/
theorem v28_at (x0 : (⟨S65536x3x128, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (b : Fin 65536) (j : Fin 640) :
    val_main_v28 (F := Ideal) x0 x1 x2 x3 x4 (ix2 b j)
      = Net.cat (fun j => val_main_v26 (F := Ideal) x0 x1 x2 x3 x4 (ix2 b j)) (fun a d => x0 (ix3 b a d)) j := by
  unfold val_main_v28 Net.cat
  by_cases h : j.val < 256
  · rw [dif_pos h]
    exact concatenate_pair_apply_left (t := S65536x640) (s₁ := S65536x256) (s₂ := S65536x384) (1 : Fin 2)
      (val_main_v26 (F := Ideal) x0 x1 x2 x3 x4) (val_main_v27 (F := Ideal) x0)
      concatenates_S65536x256_S65536x384_S65536x640_d1 (ix2 b j) rfl
      (ix2 b (⟨j.val, h⟩ : Fin 256)) (fun c => by match c with | ⟨0, _⟩ => rfl | ⟨1, _⟩ => rfl)
  · rw [dif_neg h]
    have hj : j.val - 256 < 384 := by have := j.isLt; omega
    refine (concatenate_pair_apply_right (t := S65536x640) (s₁ := S65536x256) (s₂ := S65536x384) (1 : Fin 2)
      (val_main_v26 (F := Ideal) x0 x1 x2 x3 x4) (val_main_v27 (F := Ideal) x0)
      concatenates_S65536x256_S65536x384_S65536x640_d1 (ix2 b j) rfl rfl
      (ix2 b (⟨j.val - 256, hj⟩ : Fin 384)) (fun c hc => ?_) ?_).trans ?_
    · match c with
      | ⟨0, _⟩ => rfl
      | ⟨1, _⟩ => exact absurd rfl hc
    · show (j.val - 256) + 256 = j.val
      omega
    · rw [val_main_v27_apply]
      unfold Net.flat
      refine congrArg x0 (funext fun a => Fin.ext ?_)
      have hb := b.isLt
      match a with
      | ⟨0, _⟩ => show (b.val * 384 + (j.val - 256)) / 384 = b.val; omega
      | ⟨1, _⟩ => show (b.val * 384 + (j.val - 256)) / 128 % 3 = (j.val - 256) / 128; omega
      | ⟨2, _⟩ => show (b.val * 384 + (j.val - 256)) % 128 = (j.val - 256) % 128; omega

/-- The third layer with its rectifier at row `b`, column `k`: the contraction over the 640 columns of the
    concatenation against the transposed weights, plus the broadcast bias, against the broadcast zero. -/
theorem v34_at (x0 : (⟨S65536x3x128, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x640, .f32⟩ : BufTy).Contents (Elt Ideal)) (x6 : (⟨S256, .f32⟩ : BufTy).Contents (Elt Ideal)) (b : Fin 65536) (k : Fin 256) :
    val_main_v34 (F := Ideal) x0 x1 x2 x3 x4 x5 x6 (ix2 b k)
      = Net.feat (fun j => val_main_v26 (F := Ideal) x0 x1 x2 x3 x4 (ix2 b j)) (fun a d => x0 (ix3 b a d))
          (fun k j => x5 (ix2 k j)) (fun k => x6 (ix1 k)) k := by
  have el : ∀ j : Fin 640, lidx_main_v30 (ix2 b k) j = ix2 b j := fun j =>
    funext fun a => Fin.ext (by match a with | ⟨0, _⟩ => rfl | ⟨1, _⟩ => rfl)
  have er : ∀ j : Fin 640, ridx_main_v30 (ix2 b k) j = ix2 j k := fun j =>
    funext fun a => Fin.ext (by match a with | ⟨0, _⟩ => rfl | ⟨1, _⟩ => rfl)
  have et : ∀ j : Fin 640, idx_main_v29 (ix2 j k) = ix2 k j := fun j =>
    funext fun a => Fin.ext (by match a with | ⟨0, _⟩ => rfl | ⟨1, _⟩ => rfl)
  have eb : idx_main_v31 (idx_main_v32 (ix2 b k)) = ix1 k :=
    funext fun a => Fin.ext (by match a with | ⟨0, _⟩ => rfl)
  rw [val_main_v34_apply, val_main_v33_apply, val_main_v30_apply, val_main_v32_apply, val_main_v31_apply,
    val_main_call2_v0_apply, val_main_call2_cst_apply, eb]
  unfold Net.feat
  simp only [Ideal.maximumf_def, Ideal.addf_def, Ideal.ofBits_def, Ideal.ofBits_zero_f32]
  refine congrArg (fun s => max (s + x6 (ix1 k)) 0) (Finset.sum_congr rfl fun j _ => ?_)
  rw [el, er, v28_at, val_main_v29_apply, et]

/-- The result for sample `b` at output `o`: the mixed hidden row followed by the sample's 384 features (a
    concatenation along the feature axis with the samples reshaped to rows), through the third layer with its rectifier
    and the fourth with its hyperbolic tangent. -/
theorem v40_at (x0 : (⟨S65536x3x128, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x640, .f32⟩ : BufTy).Contents (Elt Ideal)) (x6 : (⟨S256, .f32⟩ : BufTy).Contents (Elt Ideal)) (x7 : (⟨S8x256, .f32⟩ : BufTy).Contents (Elt Ideal)) (x8 : (⟨S8, .f32⟩ : BufTy).Contents (Elt Ideal)) (b : Fin 65536) (o : Fin 8) :
    val_main_v40 (F := Ideal) x0 x1 x2 x3 x4 x5 x6 x7 x8 (ix2 b o)
      = Net.out (fun j => val_main_v26 (F := Ideal) x0 x1 x2 x3 x4 (ix2 b j)) (fun a d => x0 (ix3 b a d))
          (fun k j => x5 (ix2 k j)) (fun k => x6 (ix1 k)) (fun o' k => x7 (ix2 o' k)) (fun o' => x8 (ix1 o')) o := by
  have el : ∀ k : Fin 256, lidx_main_v36 (ix2 b o) k = ix2 b k := fun k =>
    funext fun a => Fin.ext (by match a with | ⟨0, _⟩ => rfl | ⟨1, _⟩ => rfl)
  have er : ∀ k : Fin 256, ridx_main_v36 (ix2 b o) k = ix2 k o := fun k =>
    funext fun a => Fin.ext (by match a with | ⟨0, _⟩ => rfl | ⟨1, _⟩ => rfl)
  have et : ∀ k : Fin 256, idx_main_v35 (ix2 k o) = ix2 o k := fun k =>
    funext fun a => Fin.ext (by match a with | ⟨0, _⟩ => rfl | ⟨1, _⟩ => rfl)
  have eb : idx_main_v37 (idx_main_v38 (ix2 b o)) = ix1 o :=
    funext fun a => Fin.ext (by match a with | ⟨0, _⟩ => rfl)
  rw [val_main_v40_apply, val_main_v39_apply, val_main_v36_apply, val_main_v38_apply, val_main_v37_apply, eb]
  unfold Net.out
  simp only [Ideal.hostUnary_tanh_def, Ideal.addf_def]
  refine congrArg (fun s => Ideal.tanh (s + x8 (ix1 o))) (Finset.sum_congr rfl fun k _ => ?_)
  rw [el, er, v34_at, val_main_v35_apply, et]

end Cert.ReferenceIdeal.RValue

end
-- ==== Proof.RefValue.lean ====
/-
  The reference's result array at the extended reals: entry `(b, o)` is the network's value for sample `b` with the
  two neighbours mixed by softmax weights (`Net.result Net.softmix`).
-/
import proofs.«428342_j73306501808520_3_alg».proof.Proof.RefStage1
import proofs.«428342_j73306501808520_3_alg».proof.Proof.RefStage2
import proofs.«428342_j73306501808520_3_alg».proof.Proof.RefStage3

noncomputable section

namespace Cert.ReferenceIdeal.RValue

open Cert.ReferenceIdeal Cert.ReferenceIdeal.Gen Cert.ReferenceIdeal.ReadP Idealize.ShloMosaic Idealize.ShloMosaic.TcCoe Idealize.SL.Sem Idealize.ShloMosaic.ValueIdx

/-- The last stage of the reference is the network with softmax mixing, index by index. -/
theorem result_eq (x0 : (⟨S65536x3x128, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x640, .f32⟩ : BufTy).Contents (Elt Ideal)) (x6 : (⟨S256, .f32⟩ : BufTy).Contents (Elt Ideal)) (x7 : (⟨S8x256, .f32⟩ : BufTy).Contents (Elt Ideal)) (x8 : (⟨S8, .f32⟩ : BufTy).Contents (Elt Ideal)) :
    val_main_v40 (F := Ideal) x0 x1 x2 x3 x4 x5 x6 x7 x8 = Net.result Net.softmix x0 x1 x2 x3 x4 x5 x6 x7 x8 := by
  funext i
  obtain ⟨b, o, rfl⟩ : ∃ (b : Fin 65536) (o : Fin 8), i = ix2 b o := ⟨i 0, i 1, eq_ix2 i⟩
  -- the two neighbours' logits and hidden values are the network's two layers
  have e13 : ∀ j : Fin 256, (fun n : Fin 2 => val_main_v13 (F := Ideal) x0 x3 x4 (ix3 b n j))
      = fun n => Net.lin (fun a d => x0 (ix3 b a d)) (fun j d => x3 (ix2 j d)) (fun j => x4 (ix1 j)) n j :=
    fun j => funext fun n => v13_apply x0 x3 x4 b n j
  have e8 : ∀ j : Fin 256, (fun n : Fin 2 => val_main_v8 (F := Ideal) x0 x1 x2 (ix3 b n j))
      = fun n => Net.lin (fun a d => x0 (ix3 b a d)) (fun j d => x1 (ix2 j d)) (fun j => x2 (ix1 j)) n j :=
    fun j => funext fun n => v8_apply x0 x1 x2 b n j
  -- so the mixed row is the network's
  have hH : (fun j : Fin 256 => val_main_v26 (F := Ideal) x0 x1 x2 x3 x4 (ix2 b j))
      = Net.hid Net.softmix (fun a d => x0 (ix3 b a d)) (fun j d => x1 (ix2 j d)) (fun j => x2 (ix1 j))
          (fun j d => x3 (ix2 j d)) (fun j => x4 (ix1 j)) := by
    funext j
    rw [v26_apply, e13 j, e8 j]
    rfl
  rw [v40_at, hH]
  rfl

end Cert.ReferenceIdeal.RValue

end
-- ==== Proof.NetMix.lean ====
/-
  The one law of the network that is not a regrouping of sums: on real numbers, mixing two values with softmax
  weights of two logits is the second value plus the logistic of the logits' difference times the values' difference.
  It needs the logits and the values to be real numbers (on the extended reals a product does not distribute over a
  sum at the infinities), which they are when the samples and the first two layers' parameters are.
-/
import proofs.«428342_j73306501808520_3_alg».proof.Proof.Net
import Idealize.ShloMosaic.PureOps.Ideal
import Idealize.ShloMosaic.PureOps.Ideal.Laws

noncomputable section

namespace Cert.Net

open Idealize.ShloMosaic Idealize.ShloMosaic.ValueIdx

/-! ## Real numbers inside the extended reals -/

/-- The embedding of the reals is monotone, so it carries a maximum to the maximum of the images. -/
private theorem coe_max_coe (a b : ℝ) : max (a : EReal) (b : EReal) = ((max a b : ℝ) : EReal) :=
  (EReal.coe_strictMono.monotone.map_max).symm

/-- The sum of two reals is a real. -/
private theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two reals is a real. -/
private theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real: the empty sum is zero, and one more term is one more addition. -/
private theorem isReal_sum {ι : Type} (s : Finset ι) (f : ι → EReal) (hf : ∀ i ∈ s, IsReal (f i)) :
    IsReal (∑ i ∈ s, f i) := by
  classical
  induction s using Finset.induction_on with
  | empty => exact ⟨0, by rw [Finset.sum_empty, EReal.coe_zero]⟩
  | insert a s ha ih =>
    rw [Finset.sum_insert ha]
    exact isReal_add (hf a (Finset.mem_insert_self a s)) (ih (fun i hi => hf i (Finset.mem_insert_of_mem hi)))

/-- The rectifier of a real is a real. -/
private theorem isReal_max_zero {x : EReal} (hx : IsReal x) : IsReal (max x 0) := by
  obtain ⟨a, rfl⟩ := hx
  exact ⟨max a 0, by rw [← EReal.coe_zero, coe_max_coe]⟩

/-- The identity behind the two ways of mixing, on real numbers: with the exponentials `p = exp e₀`, `q = exp e₁` and
    `m = exp M`, both weights of the first value are `p / (p + q)`, and the two softmax weights add up to one. -/
private theorem real_softmix_eq_sigmix (a0 a1 M c0 c1 : ℝ) :
    Real.exp (a0 - M) * (1 / (Real.exp (a0 - M) + Real.exp (a1 - M))) * c0
      + Real.exp (a1 - M) * (1 / (Real.exp (a0 - M) + Real.exp (a1 - M))) * c1
    = c1 + 1 * (1 / (1 + Real.exp (0 - (a0 - a1)))) * (c0 - c1) := by
  have hp : 0 < Real.exp a0 := Real.exp_pos a0
  have hq : 0 < Real.exp a1 := Real.exp_pos a1
  have hm : 0 < Real.exp M := Real.exp_pos M
  have e2 : Real.exp (0 - (a0 - a1)) = Real.exp a1 / Real.exp a0 := by
    rw [show (0 : ℝ) - (a0 - a1) = a1 - a0 by ring, Real.exp_sub]
  rw [Real.exp_sub a0 M, Real.exp_sub a1 M, e2]
  have hs : Real.exp a0 + Real.exp a1 ≠ 0 := ne_of_gt (add_pos hp hq)
  field_simp
  ring

/-- On real numbers the softmax-weighted sum of two values is the second plus the logistic weight times their difference:
    `exp(e₀ - M) / (exp(e₀ - M) + exp(e₁ - M)) = 1 / (1 + exp(-(e₀ - e₁)))` for every real shift `M`, and the two weights add up to one. -/
theorem softmix_eq_sigmix (e h : Fin 2 → EReal) (he : ∀ n, IsReal (e n)) (hh : ∀ n, IsReal (h n)) :
    softmix e h = sigmix e h := by
  obtain ⟨a0, ha0⟩ := he 0
  obtain ⟨a1, ha1⟩ := he 1
  obtain ⟨c0, hc0⟩ := hh 0
  obtain ⟨c1, hc1⟩ := hh 1
  unfold softmix sigmix
  simp only [Fin.sum_univ_two]
  rw [ha0, ha1, hc0, hc1]
  -- every exponential's argument is a real number, so every exponential is a positive real
  have hS : Real.exp (a0 - max a0 a1) + Real.exp (a1 - max a0 a1) ≠ 0 :=
    ne_of_gt (add_pos (Real.exp_pos _) (Real.exp_pos _))
  have hT : 1 + Real.exp (0 - (a0 - a1)) ≠ 0 := ne_of_gt (add_pos zero_lt_one (Real.exp_pos _))
  have e0 : Ideal.exp ((a0 : EReal) - max (a0 : EReal) (a1 : EReal)) = ((Real.exp (a0 - max a0 a1) : ℝ) : EReal) := by
    rw [coe_max_coe, ← EReal.coe_sub, Ideal.exp_coe]
  have e1 : Ideal.exp ((a1 : EReal) - max (a0 : EReal) (a1 : EReal)) = ((Real.exp (a1 - max a0 a1) : ℝ) : EReal) := by
    rw [coe_max_coe, ← EReal.coe_sub, Ideal.exp_coe]
  have e2 : (1 : EReal) + Ideal.exp (0 - ((a0 : EReal) - (a1 : EReal))) = ((1 + Real.exp (0 - (a0 - a1)) : ℝ) : EReal) := by
    rw [← EReal.coe_sub, ← EReal.coe_zero, ← EReal.coe_sub, Ideal.exp_coe, ← EReal.coe_one, ← EReal.coe_add]
  rw [e0, e1, e2, zero_add, zero_add, ← EReal.coe_add, Ideal.div_coe hS, Ideal.div_coe hS, Ideal.div_coe hT,
    ← EReal.coe_one, ← EReal.coe_sub]
  simp only [← EReal.coe_mul, ← EReal.coe_add]
  exact congrArg _ (real_softmix_eq_sigmix a0 a1 (max a0 a1) c0 c1)

/-- A rectified linear layer of real inputs, weights and biases is a real number. -/
theorem lin_isReal (x : Fin 3 → Fin 128 → EReal) (W : Fin 256 → Fin 256 → EReal) (β : Fin 256 → EReal)
    (hx : ∀ a d, IsReal (x a d)) (hW : ∀ j d, IsReal (W j d)) (hβ : ∀ j, IsReal (β j)) (n : Fin 2) (j : Fin 256) :
    IsReal (lin x W β n j) := by
  unfold lin
  refine isReal_max_zero (isReal_add (isReal_sum _ _ (fun d _ => isReal_mul ?_ (hW j d))) (hβ j))
  unfold agents
  split
  · exact hx _ _
  · exact hx _ _

/-- With real features and real first- and second-layer parameters the two ways of mixing give one network. -/
theorem net_softmix_eq_sigmix (x : Fin 3 → Fin 128 → EReal)
    (W1 : Fin 256 → Fin 256 → EReal) (b1 : Fin 256 → EReal) (W2 : Fin 256 → Fin 256 → EReal) (b2 : Fin 256 → EReal)
    (W3 : Fin 256 → Fin 640 → EReal) (b3 : Fin 256 → EReal) (W4 : Fin 8 → Fin 256 → EReal) (b4 : Fin 8 → EReal) (o : Fin 8)
    (hx : ∀ a d, IsReal (x a d)) (hW1 : ∀ j d, IsReal (W1 j d)) (hb1 : ∀ j, IsReal (b1 j))
    (hW2 : ∀ j d, IsReal (W2 j d)) (hb2 : ∀ j, IsReal (b2 j)) :
    net softmix x W1 b1 W2 b2 W3 b3 W4 b4 o = net sigmix x W1 b1 W2 b2 W3 b3 W4 b4 o := by
  have hH : hid softmix x W1 b1 W2 b2 = hid sigmix x W1 b1 W2 b2 := by
    funext j
    exact softmix_eq_sigmix _ _ (fun n => lin_isReal x W2 b2 hx hW2 hb2 n j) (fun n => lin_isReal x W1 b1 hx hW1 hb1 n j)
  unfold net
  rw [hH]

/-- With real samples and real first- and second-layer parameters, the two ways of mixing give one result array. -/
theorem result_softmix_eq_sigmix
    (st : (⟨3, ![65536, 3, 128]⟩ : Shape).Idx → EReal)
    (w1 : (⟨2, ![256, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![256, 640]⟩ : Shape).Idx → EReal) (b3 : (⟨1, ![256]⟩ : Shape).Idx → EReal)
    (w4 : (⟨2, ![8, 256]⟩ : Shape).Idx → EReal) (b4 : (⟨1, ![8]⟩ : Shape).Idx → EReal)
    (hst : ∀ i, IsReal (st i)) (hw1 : ∀ i, IsReal (w1 i)) (hb1 : ∀ i, IsReal (b1 i))
    (hw2 : ∀ i, IsReal (w2 i)) (hb2 : ∀ i, IsReal (b2 i)) :
    result softmix st w1 b1 w2 b2 w3 b3 w4 b4 = result sigmix st w1 b1 w2 b2 w3 b3 w4 b4 := by
  funext i
  exact net_softmix_eq_sigmix _ _ _ _ _ _ _ _ _ _ (fun a d => hst _) (fun j d => hw1 _) (fun j => hb1 _)
    (fun j d => hw2 _) (fun j => hb2 _)

end Cert.Net

end
-- ==== Proof.Finite.lean ====
/-
  The precondition read: when every float input is finite, every entry of the samples and of the first two
  layers' weights and biases is a real number.

  The printed predicate is, for each of the nine float arrays, `jnp.all(|a| < +inf)`: the absolute value compared
  elementwise with the positive infinity broadcast from a scalar, then the conjunction over every index from the
  constant 1; the nine results are joined by `and`. On the extended reals `|x| = max x (-x)` and the infinity's
  pattern denotes the top element, so `|x| < +inf` excludes exactly the two infinities.
-/
import proofs.«428342_j73306501808520_3_alg».proof.Pre_finite_inputs
import proofs.«428342_j73306501808520_3_alg».proof.Proof.Net
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

/-- The rank-0 shape has one index: an index is a function on the empty set of axes. -/
instance : Subsingleton S_.Idx := ⟨fun a b => funext fun d => d.elim0⟩

/-- The pattern of positive infinity (exponent all ones, significand zero, sign clear) denotes the top element. -/
theorem ofBits_inf : Ideal.ofBits .f32 0x7F800000#32 = (⊤ : EReal) := by
  simp [Ideal.ofBits, Ideal.ieee]

/-- An extended real whose absolute value `max x (-x)` is strictly below the top element is a real number: the
    bottom element's negation is the top, so either infinity has absolute value top, which is not below itself. -/
theorem isReal_of_abs_lt (x : EReal) (h : Ideal.cmp .olt (max x (-x)) (Ideal.ofBits .f32 0x7F800000#32) = 1#1) :
    Net.IsReal x := by
  rw [ofBits_inf] at h
  induction x using EReal.rec with
  | bot => simp [Ideal.cmp] at h
  | top => simp [Ideal.cmp] at h
  | coe r => exact ⟨r, rfl⟩

/-- `jnp.all(|a| < +inf)` read back, for an array of any shape: when the conjunction over every index is 1, the
    comparison is 1 at each index `i`, and there it is `|a i| < +inf` (the broadcast scalar reads the same everywhere). -/
theorem all_real {S : Shape} {axes : List (Fin S.rank)} (a : FVec Ideal S .f32)
    (hb : S_.BroadcastsInDim S (![] : Fin 0 → Fin S.rank)) (hred : S.ReducesTo axes S_) (hS : 0 < S_.numel)
    (e : Host.reduce IntOp.andi (cmpf .olt (Host.absf a) (broadcastInDim S ![] hb (constant (F := Ideal) S_ .f32 0x7F800000#32)))
          (constantI S_ 1 1#1) hred hS ix0 = 1#1) (i : S.Idx) : Net.IsReal (a i) :=
  isReal_of_abs_lt (a i) (Host.reduce_andi_all _ _ hred hS ix0 e i)

theorem isReal_of_pre [Cert.Pre_finite_inputs.Facts]
    (a0 : FVec Ideal S65536x3x128 .f32) (a1 : FVec Ideal S256x256 .f32) (a2 : FVec Ideal S256 .f32)
    (a3 : FVec Ideal S256x256 .f32) (a4 : FVec Ideal S256 .f32) (a5 : FVec Ideal S256x640 .f32) (a6 : FVec Ideal S256 .f32)
    (a7 : FVec Ideal S8x256 .f32) (a8 : FVec Ideal S8 .f32)
    (h : Cert.Pre_finite_inputs.fn (F := Ideal) a0 a1 a2 a3 a4 a5 a6 a7 a8 = fun _ => 1#1) :
    (∀ i, Net.IsReal (a0 i)) ∧ (∀ i, Net.IsReal (a1 i)) ∧ (∀ i, Net.IsReal (a2 i)) ∧ (∀ i, Net.IsReal (a3 i)) ∧ (∀ i, Net.IsReal (a4 i)) := by
  -- the printed predicate at the scalar's one index: nine conjuncts joined by `and`, nested to the left
  have e := congrFun h ValueIdx.ix0
  dsimp only [fn, fn_part1, fn_part2] at e
  -- the last four conjuncts speak of the third and fourth layers' parameters: not needed
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  -- the first five, one per array
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_real a0 _ _ _ e0, all_real a1 _ _ _ e1, all_real a2 _ _ _ e2, all_real a3 _ _ _ e3, all_real a4 _ _ _ e4⟩

end Cert.Pre_finite_inputs.Finite

end
-- ==== Proof.lean ====
/-
  The certificate's claims, assembled.

  Both programs compute, for each of the 65536 samples, the same small network on the extended reals (Proof/Net.lean):
  two rectified linear layers on the agent's features followed by each neighbour's, a two-way attention mix of the
  neighbours, a third rectified linear layer on the mixed row followed by the sample's features, and a fourth with a
  hyperbolic tangent. A change of float format is the identity on the extended reals, and a block product into a zero
  accumulator is the plain sum over the contracted index, so the kernel's narrow-format products and its cuts of each
  contraction (after 128 of 256 features; after 256 of 640) only regroup finite sums (Proof/NetLayout.lean). The one
  law that is more than a regrouping joins the two ways of mixing: the reference weighs the neighbours by a softmax
  of their logits, the kernel adds to the second neighbour's value the logistic of the logits' difference times the
  values' difference; on real numbers these agree (Proof/NetMix.lean), and the logits and hidden values are real numbers
  because the precondition makes every input finite (Proof/Finite.lean).

  The kernel's result array is read off its frame run block by block (Proof/KernelValue.lean over Proof/KernelBody.lean
  and Proof/KernelWindowsA.lean, Proof/KernelWindowsB.lean), the reference's off its run one operation at a time
  (Proof/RefValue.lean over Proof/RefStage1.lean, Proof/RefStage2.lean, Proof/RefStage3.lean).
-/
import proofs.«428342_j73306501808520_3_alg».proof.Defs
import proofs.«428342_j73306501808520_3_alg».proof.Proof.Gen.Kernel
import proofs.«428342_j73306501808520_3_alg».proof.Proof.Gen.Kernel.Skeleton
import proofs.«428342_j73306501808520_3_alg».proof.Proof.Gen.Kernel.Launch
import proofs.«428342_j73306501808520_3_alg».proof.Proof.Gen.Kernel.Points
import proofs.«428342_j73306501808520_3_alg».proof.Proof.Gen.Kernel.Frame
import proofs.«428342_j73306501808520_3_alg».proof.Proof.Gen.KernelIdeal
import proofs.«428342_j73306501808520_3_alg».proof.Proof.Gen.KernelIdeal.Skeleton
import proofs.«428342_j73306501808520_3_alg».proof.Proof.Gen.KernelIdeal.Launch
import proofs.«428342_j73306501808520_3_alg».proof.Proof.Gen.KernelIdeal.Points
import proofs.«428342_j73306501808520_3_alg».proof.Proof.Gen.KernelIdeal.Frame
import proofs.«428342_j73306501808520_3_alg».proof.Proof.Gen.ReferenceIdeal
import proofs.«428342_j73306501808520_3_alg».proof.Proof.Gen.Pre_finite_inputs
import proofs.«428342_j73306501808520_3_alg».proof.Proof.Gen.KernelIdeal.Value
import proofs.«428342_j73306501808520_3_alg».proof.Proof.RefRead
import proofs.«428342_j73306501808520_3_alg».proof.Proof.KernelValue
import proofs.«428342_j73306501808520_3_alg».proof.Proof.RefValue
import proofs.«428342_j73306501808520_3_alg».proof.Proof.NetMix
import proofs.«428342_j73306501808520_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote nothing: there is nothing to preserve. -/
theorem preserves : Cert.preserves_Kernel_KernelIdeal := trivial

/-- From memories that agree on the nine arguments, all finite, both runs end with the network's result for every
    sample: the kernel's with the logistic mix, the reference's with the softmax mix, one array on real numbers. -/
theorem algebraic : Cert.algebraic_KernelIdeal_ReferenceIdeal := by
  intro m ρ m' ρ' hpre hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8⟩ := hagree c
  rw [Cert.ReferenceIdeal.ReadP.val_main_v40_eq, Cert.ReferenceIdeal.RValue.result_eq, h0, h1, h2, h3, h4, h5, h6, h7, h8]
  obtain ⟨r0, r1, r2, r3, r4⟩ := Cert.Pre_finite_inputs.Finite.isReal_of_pre _ _ _ _ _ _ _ _ _ (hpre c)
  exact Cert.Net.result_softmix_eq_sigmix _ _ _ _ _ _ _ _ _ r0 r1 r2 r3 r4

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
